-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1024x1024 : Shape := ⟨2, ![1024, 1024]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1024x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8192x512 .f32) (main_arg1 : FVec F S8192x512 .f32) (main_arg2 : FVec F S1024x1024 .f32) (main_arg3 : FVec F S1x1024 .f32) (main_arg4 : FVec F S1024x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Kernel.lean ====
abbrev S8192x512 : Shape := ⟨2, ![8192, 512]⟩
abbrev S1024x1024 : Shape := ⟨2, ![1024, 1024]⟩
abbrev S1x1024 : Shape := ⟨2, ![1, 1024]⟩
abbrev S8192x1024 : Shape := ⟨2, ![8192, 1024]⟩
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 7
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S1x1024, .f32⟩
  | .hbm, ⟨4, _⟩ => ⟨S1024x1024, .f32⟩
  | .hbm, ⟨5, _⟩ => ⟨S8192x1024, .f32⟩
  | .hbm, ⟨6, _⟩ => ⟨S1024x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1024x1024, .f32⟩
  | .local _ .vmem, ⟨14, _⟩ => ⟨S2048x1024, .f32⟩
  | .local _ .vmem, ⟨15, _⟩ => ⟨S2048x1024, .f32⟩
  | .local _ .vmem, ⟨16, _⟩ => ⟨S256x1024, .f32⟩
  | .local _ .vmem, ⟨17, _⟩ => ⟨S256x1024, .f32⟩
  | .local _ .vmem, ⟨18, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c256_i32 : BitVec 32 := 256#32
  let v24 : BitVec 32 := Scalar.muli arg0 c256_i32
  let v25 : Index := Scalar.indexCast v24
  let c0_23 : Index := 0#32
  ![v25.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  iota_S1024x1024_d0_w32 : S1024x1024.Iotas .tc 32 [0]
  iota_S1024x1024_d1_w32 : S1024x1024.Iotas .tc 32 [1]
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x256_S2048x256_0_0 : ∀ a, (![0, 0] : Fin 2 → Nat) a + S2048x256.size a ≤ S2048x256.size a
  h_S2048x256 : 0 < S2048x256.numel
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  iota_S256x1024_d0_w32 : S256x1024.Iotas .tc 32 [0]
  iota_S256x1024_d1_w32 : S256x1024.Iotas .tc 32 [1]
  dot_S2048x256_S256x1024_S2048x1024_1_0_0_1_n_n_wf : DotDims.WF S2048x256 S256x1024 S2048x1024 [1] [0] [0] [1] [] []
  dot_S256x1024_S1024x1024_S256x1024_1_1_0_0_n_n_wf : DotDims.WF S256x1024 S1024x1024 S256x1024 [1] [1] [0] [0] [] []
  hrank0 : 0 < grid0.rank
  k0_off1_inb : ∀ i : grid0.Coords, ∀ a, (k0_off1 i) a + S256x1024.size a ≤ S1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x512.size a
  hwx0_0 : ∀ i : grid0.Coords, EltTy.bits .f32 = 32 ∨ (Rect.block (s := S8192x512) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x512.size a
  hwx0_1 : ∀ i : grid0.Coords, EltTy.bits .f32 = 32 ∨ (Rect.block (s := S8192x512) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x512.size a
  hwx0_2 : ∀ i : grid0.Coords, EltTy.bits .f32 = 32 ∨ (Rect.block (s := S8192x512) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x512.size a
  hwx0_3 : ∀ i : grid0.Coords, EltTy.bits .f32 = 32 ∨ (Rect.block (s := S8192x512) S2048x256.size (cc0_transform_3 i) (hinb0_3 i)).WholeWords (EltTy.packing .f32)
  hstage0_4 : ∀ j, (stage0_4 j).IsWhole
  nbuf0_4 : grid0.bufCount reads0_4 false = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S1024x1024.size a
  hwx0_4 : ∀ i : grid0.Coords, EltTy.bits .f32 = 32 ∨ (Rect.block (s := S1024x1024) S256x1024.size (cc0_transform_4 i) (hinb0_4 i)).WholeWords (EltTy.packing .f32)
  hstage0_5 : ∀ j, (stage0_5 j).IsWhole
  nbuf0_5 : grid0.bufCount reads0_5 false = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S1024x1024.size a
  hwx0_5 : ∀ i : grid0.Coords, EltTy.bits .f32 = 32 ∨ (Rect.block (s := S1024x1024) S256x1024.size (cc0_transform_5 i) (hinb0_5 i)).WholeWords (EltTy.packing .f32)
  hstage0_6 : ∀ j, (stage0_6 j).IsWhole
  nbuf0_6 : grid0.bufCount reads0_6 false = 1
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S1024x1024.size a
  hwx0_6 : ∀ i : grid0.Coords, EltTy.bits .f32 = 32 ∨ (Rect.block (s := S1024x1024) S256x1024.size (cc0_transform_6 i) (hinb0_6 i)).WholeWords (EltTy.packing .f32)
  hstage0_7 : ∀ j, (stage0_7 j).IsWhole
  nbuf0_7 : grid0.bufCount reads0_7 false = 1
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S1024x1024.size a
  hwx0_7 : ∀ i : grid0.Coords, EltTy.bits .f32 = 32 ∨ (Rect.block (s := S1024x1024) S256x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .f32 = 32 ∨ (Rect.block (s := S1024x1024) S1024x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x1024.size a ≤ S8192x1024.size a
  hwx0_10 : ∀ i : grid0.Coords, EltTy.bits .f32 = 32 ∨ (Rect.block (s := S8192x1024) S2048x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S1024x1024.size a
  hwx0_11 : ∀ i : grid0.Coords, EltTy.bits .f32 = 32 ∨ (Rect.block (s := S1024x1024) S256x1024.size (cc0_transform_11 i) (hinb0_11 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x1024.size cc0_transform_4 reads0_4 false false 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x1024.size cc0_transform_5 reads0_5 false false 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S256x1024.size cc0_transform_6 reads0_6 false false 1 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S256x1024.size cc0_transform_7 reads0_7 false false 1 stage0_7 sem0_7
    hrank0 hreads0_7 hinb0_7 nbuf0_7 (Memref.isWhole_whole _) hwx0_7 hstage0_7

abbrev win0_8 : Pipeline.Window sig grid0 :=
  Pipeline.Window.ofSpec (Memref.whole main_arg3) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg4) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S2048x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x512 : Shape := ⟨2, ![8192, 512]⟩
abbrev S1024x1024 : Shape := ⟨2, ![1024, 1024]⟩
abbrev S1x1024 : Shape := ⟨2, ![1, 1024]⟩
abbrev S8192x1024 : Shape := ⟨2, ![8192, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S1x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

class Facts₀ : Prop where
  concatenates_S8192x512_S8192x512_S8192x1024_d1 : Shape.Concatenates [S8192x512, S8192x512] S8192x1024 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  iota_S1024x1024_d0_w32 : S1024x1024.Iotas .tc 32 [0]
  iota_S1024x1024_d1_w32 : S1024x1024.Iotas .tc 32 [1]
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage1_0 : ∀ j, (stage1_0 j).IsWhole
  hstage1_1 : ∀ j, (stage1_1 j).IsWhole

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.whole (Memref.whole main_arg4) false false (stage1_0 0) (sem1_0 0) (Memref.isWhole_whole _) (hstage1_0 0)

abbrev win1_1 : Pipeline.Window sig grid1 :=
  Pipeline.Window.whole (Memref.whole main_v2) true false (stage1_1 0) (sem1_1 0) (Memref.isWhole_whole _) (hstage1_1 0)

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== Proof.BBody.lean ====
/-
  The fused kernel's body at one grid point, as a triple over whole staging memrefs.

  The body first tests whether the point is 0 or 2. If so it loads the parameter matrix C, keeps its lower triangle (entry
  (p, k) where k ≤ p, zero elsewhere) and stores that into the scratch matrix. Then, at every point, it stores into the
  mean's block the sum of four [2048, 256] × [256, 1024] products plus the bias row, loads rows 256·i … 256·i + 255 of the
  scratch and the whole scratch, and stores into the covariance's block the clamped product of those rows with the
  transpose of the whole, jitter on the diagonal. So there are two cases: the scratch is overwritten with the triangle of C
  (whatever it held), or it is read as it was left.
-/
import proofs.«131072_g2000702177497736_pallasbulk_855_6_alg».proof.Proof.Gen.Kernel.Launch
import proofs.«131072_g2000702177497736_pallasbulk_855_6_alg».proof.Proof.Gen.Kernel.Skeleton
import proofs.«131072_g2000702177497736_pallasbulk_855_6_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's test "the point is 0 or 2", from the grid coordinates. -/
abbrev isReset (i : grid0.Coords) : Prop :=
  (Scalar.cmpi .ne (Scalar.extui (Scalar.ori (Scalar.cmpi .eq (BitVec.ofNat 32 (i 0).val) 0#32) (Scalar.cmpi .eq (BitVec.ofNat 32 (i 0).val) 2#32))) 0#32) = 1#1

/-- It holds at the even points of the grid of four. -/
theorem isReset_iff : ∀ t : Fin cfg0.N, isReset (grid0.coords t) ↔ t.val % 2 = 0 :=
  (by decide +kernel : ∀ t : Fin grid0.N, isReset (grid0.coords t) ↔ t.val % 2 = 0)

/-- The rectangle of rows 256·i … 256·i + 255 of a [1024, 1024] matrix. -/
abbrev rowsRect (i : grid0.Coords) : Rect S1024x1024 := Rect.unit (s := S1024x1024) (k0_off1 i) S256x1024.size (Facts₀.k0_off1_inb i)

/-- Those rows of a matrix. -/
abbrev rowsOf (i : grid0.Coords) (X : Vec F S1024x1024 .f32) : Vec F S256x1024 .f32 := View.ld X (rowsRect i)

/-- Row p of the slice at point t is row 256·t + p of the matrix. -/
theorem rowsOf_apply (t : Fin cfg0.N) (X : Vec F S1024x1024 .f32) (p : Fin 256) (k : Fin 1024) :
    rowsOf (grid0.coords t) X (ValueIdx.ix2 p k) = X (ValueIdx.ix2 ⟨256 * t.val + p.val, by have := t.isLt; have h4 : cfg0.N = 4 := N_0; have := p.isLt; omega⟩ k) := by
  -- the rectangle's offsets at point t are (256·t, 0): the four points are evaluated
  have hoff : k0_off1 (grid0.coords t) = ![256 * t.val, 0] :=
    (by decide +kernel : ∀ t : Fin grid0.N, k0_off1 (grid0.coords t) = ![256 * t.val, 0]) t
  show X ((rowsRect (grid0.coords t)).idx (ValueIdx.ix2 p k)) = X _
  -- coordinate a of the rectangle's index is offset a + 1 · (coordinate a of (p, k)); axis by axis
  refine congrArg X (funext fun a => Fin.ext ?_)
  show k0_off1 (grid0.coords t) a + 1 * (ValueIdx.ix2 p k a).val = _
  rw [hoff, Nat.one_mul]
  match a with
  | ⟨0, _⟩ => rfl
  | ⟨1, _⟩ => exact Nat.zero_add _

/-- What the body stores into the mean's block, from the four evidence blocks, the four weight blocks and the bias row. -/
abbrev meanBlk (x1 x2 x3 x4 : Vec F S2048x256 .f32) (x5 x6 x7 x8 : Vec F S256x1024 .f32) (x9 : Vec F S1x1024 .f32)  : Vec F S2048x1024 .f32 :=
  k0_pay3 x1 x5 x2 x6 x3 x7 x4 x8 x9

/-- What the body stores into the covariance's block at coordinates i when the scratch reads Lm. -/
abbrev covBlk (i : grid0.Coords) (Lm : Vec F S1024x1024 .f32) : Vec F S256x1024 .f32 :=
  k0_pay1 (BitVec.ofNat 32 (i 0).val) (rowsOf i Lm) Lm

set_option maxHeartbeats 1000000 in
/-- At a point that is 0 or 2: from the ten input buffers at their contents and the two output buffers and the scratch at
    anything, the body ends with the inputs as they were, the mean's block, the covariance's block over the triangle of
    C, and the scratch at the triangle of C (x10 is the buffer of C). -/
theorem run_reset (c : Dev nD) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2048x1024 .f32) (harg11 : arg11.IsWhole) (arg12 : Memref sig .tc .vmem S256x1024 .f32) (harg12 : arg12.IsWhole) (arg13 : Memref sig .tc .vmem S1024x1024 .f32) (harg13 : arg13.IsWhole)
    (hc : isReset i) (x1 x2 x3 x4 : Vec F S2048x256 .f32) (x5 x6 x7 x8 : Vec F S256x1024 .f32) (x9 : Vec F S1x1024 .f32) (x10 : Vec F S1024x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (meanBlk x1 x2 x3 x4 x5 x6 x7 x8 x9) ∗ owns (c : Thread nD τ) arg12 fullShare (covBlk i (k0_pay2 x10)) ∗ owns (c : Thread nD τ) arg13 fullShare (k0_pay2 x10)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  -- a whole buffer's raw contents are determined by what it reads
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  have hz : (![0, 0] : Fin 2 → Nat) = fun _ => 0 := funext fun a => match a with | ⟨0, _⟩ => rfl | ⟨1, _⟩ => rfl
  -- the body's memory operations in order, the test decided by the hypothesis on the point
  sl_exec (disch := first | exact hc)
  sl_step
  iapply Hk
  -- the ten input buffers are handed back as they were
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    -- the mean's buffer: one store through the whole of it leaves its payload, and each of the nine loads through a
    -- whole buffer reads that buffer's contents
    rw [View.read_writes_eq_canon _ _ _ (fun y => ⟨_, List.mem_singleton_self _, View.mem_set_unit_zero hz Facts₀.inb_S2048x1024_S2048x1024_0_0 y⟩), View.canon_unit_zero hz]
    simp only [View.readAt_eq_ld, hf1, hf2, hf3, hf4, hf5, hf6, hf7, hf8, hf9, View.ld_unit_zero (S := S2048x256) hz, View.ld_unit_zero (S := S256x1024) hz, View.ld_unit_zero (S := S1x1024) hz]
  isplitl [H12]
  · iexists _; isplitr
    swap; · iexact H12
    ipureintro
    -- the covariance's buffer: one store through the whole of it
    rw [View.read_writes_eq_canon _ _ _ (fun y => ⟨_, List.mem_singleton_self _, View.mem_set_unit_zero hz Facts₀.inb_S256x1024_S256x1024_0_0 y⟩), View.canon_unit_zero hz]
    sl_unfold_run_names
    -- both loads of the scratch come after the store of the triangle through the whole of it: they read the triangle, the
    -- first at the rows' indices
    rw [View.readAt_writes_junk_eq_canon, View.readCov_unit_zero (S := S1024x1024) _ hz, View.canon_unit_zero hz]
    simp only [View.readAt_eq_ld, hf10, View.ld_unit_zero (S := S1024x1024) hz]
    rfl
  iexists _; isplitr
  swap; · iexact H13
  ipureintro
  sl_unfold_run_names
  -- the one store through the whole scratch leaves the triangle of what was loaded from the buffer of C
  rw [View.read_writes_junk_eq_canon, View.canon_unit_zero hz]
  simp only [View.readAt_eq_ld, hf10, View.ld_unit_zero (S := S1024x1024) hz]

set_option maxHeartbeats 1000000 in
/-- At a point that is 1 or 3: the same with the scratch read as it was left (contents Lm) and handed back unchanged. -/
theorem run_keep (c : Dev nD) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2048x1024 .f32) (harg11 : arg11.IsWhole) (arg12 : Memref sig .tc .vmem S256x1024 .f32) (harg12 : arg12.IsWhole) (arg13 : Memref sig .tc .vmem S1024x1024 .f32) (harg13 : arg13.IsWhole)
    (hc : ¬ isReset i) (x1 x2 x3 x4 : Vec F S2048x256 .f32) (x5 x6 x7 x8 : Vec F S256x1024 .f32) (x9 : Vec F S1x1024 .f32) (x10 : Vec F S1024x1024 .f32) (Lm : Vec F S1024x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare Lm
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (meanBlk x1 x2 x3 x4 x5 x6 x7 x8 x9) ∗ owns (c : Thread nD τ) arg12 fullShare (covBlk i Lm) ∗ owns (c : Thread nD τ) arg13 fullShare Lm) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, Hk⟩
  -- a whole buffer's raw contents are determined by what it reads
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg13.eq_unread hf13
  have hz : (![0, 0] : Fin 2 → Nat) = fun _ => 0 := funext fun a => match a with | ⟨0, _⟩ => rfl | ⟨1, _⟩ => rfl
  -- the body's memory operations in order, the test decided by the hypothesis on the point
  sl_exec (disch := first | exact hc)
  sl_step
  iapply Hk
  -- the ten input buffers are handed back as they were
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    -- the mean's buffer: one store through the whole of it leaves its payload, and each of the nine loads through a
    -- whole buffer reads that buffer's contents
    rw [View.read_writes_eq_canon _ _ _ (fun y => ⟨_, List.mem_singleton_self _, View.mem_set_unit_zero hz Facts₀.inb_S2048x1024_S2048x1024_0_0 y⟩), View.canon_unit_zero hz]
    simp only [View.readAt_eq_ld, hf1, hf2, hf3, hf4, hf5, hf6, hf7, hf8, hf9, View.ld_unit_zero (S := S2048x256) hz, View.ld_unit_zero (S := S256x1024) hz, View.ld_unit_zero (S := S1x1024) hz]
  isplitl [H12]
  · iexists _; isplitr
    swap; · iexact H12
    ipureintro
    -- the covariance's buffer: one store through the whole of it; the rows and the whole of the scratch are loaded from
    -- the scratch as it was left
    rw [View.read_writes_eq_canon _ _ _ (fun y => ⟨_, List.mem_singleton_self _, View.mem_set_unit_zero hz Facts₀.inb_S256x1024_S256x1024_0_0 y⟩), View.canon_unit_zero hz]
    sl_unfold_run_names
    simp only [View.readAt_eq_ld, hf13, View.ld_unit_zero (S := S1024x1024) hz]
  -- the scratch is handed back unchanged
  iexists _; isplitr; · ipureintro; exact harg13.read_unread _
  iexact H13

end Cert.Kernel.Hand

end
-- ==== Proof.BDats.lean ====
/-
  The proof data of the fused kernel's pipeline.

  The region is entered from the launch memory (the program is the one call). Each of the ten input windows holds, at every
  grid point, its block of its array: the four evidence windows are the two column halves of rows 2048·t … 2048·t + 2047 of
  each evidence array, the four weight windows the four row quarters of the weight matrix, the bias and the parameter
  matrix C whole. After the body at point t the mean's window holds the four-product sum over those blocks plus the bias,
  and the covariance's window the clamped product of rows 256·t … of the lower triangle L of C with the transpose of L.
  The scratch matrix holds L from the end of point 0 on: points 0 and 2 store it, points 1 and 3 leave it. Three arrays are
  read through several windows; each such window holds its array at a share: the two evidence arrays by halves, the
  weight matrix by quarters.
-/
import proofs.«131072_g2000702177497736_pallasbulk_855_6_alg».proof.Proof.BBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the region is entered: the launch memory. -/
abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The parameter matrix C. -/
abbrev Cmat (c : Dev nD) : Vec F S1024x1024 .f32 := V m c main_arg4
/-- Its lower triangle L, which the scratch carries. -/
abbrev Lmat (c : Dev nD) : Vec F S1024x1024 .f32 := k0_pay2 (Cmat m c)

/-- The shares: an array read through two windows is held by halves, through four by quarters. -/
abbrev shareOf : Fin 12 → PosShare TreeShare
  | ⟨0, _⟩ => fullShare.left | ⟨1, _⟩ => fullShare.right
  | ⟨2, _⟩ => fullShare.left | ⟨3, _⟩ => fullShare.right
  | ⟨4, _⟩ => fullShare.left.left | ⟨5, _⟩ => fullShare.left.right | ⟨6, _⟩ => fullShare.right.left | ⟨7, _⟩ => fullShare.right.right
  | _ => fullShare

/-- The invariant between points: before point 0 the scratch holds anything; afterwards the lower triangle of C. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) (Memref.whole cc0_scratch0 : Memref sig .tc .vmem S1024x1024 .f32) fullShare (Lmat m c)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => meanBlk (iblk m c 0 t) (iblk m c 1 t) (iblk m c 2 t) (iblk m c 3 t) (iblk m c 4 t) (iblk m c 5 t) (iblk m c 6 t) (iblk m c 7 t) (iblk m c 8 t)
    | ⟨11, _⟩ => covBlk (grid0.coords t) (Lmat m c)
  Φ t := PhiS m c t.val
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = meanBlk (iblk m c 0 t) (iblk m c 1 t) (iblk m c 2 t) (iblk m c 3 t) (iblk m c 4 t) (iblk m c 5 t) (iblk m c 6 t) (iblk m c 7 t) (iblk m c 8 t) := by dsimp only [dats]
theorem after11 (c : Dev nD) (t : Fin cfg0.N) : (dats m 0 c).after 11 t = covBlk (grid0.coords t) (Lmat m c) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)

/-- Window 9's block is the whole parameter matrix at every point. -/
theorem index9 : ∀ t : Fin cfg0.N, ∀ a : Fin 2, win0_9.index t a = 0 :=
  (by decide +kernel : ∀ t : Fin grid0.N, ∀ a : Fin 2, win0_9.index t a = 0)

theorem iblk9_eq (c : Dev nD) (t : Fin cfg0.N) : (iblk m c 9 t : Vec F S1024x1024 .f32) = Cmat m c := by
  funext y
  unfold iblk
  rw [View.read_apply]
  show V m c main_arg4 (((cfg0.win 9).blk t).view.emb y) = V m c main_arg4 y
  refine congrArg (V m c main_arg4) (funext fun a => Fin.ext ?_)
  show win0_9.index t a * S1024x1024.size a + 1 * (y a).val = (y a).val
  rw [index9 t a]; omega

end Cert.Kernel.Hand

end
-- ==== Proof.BOblig.lean ====
/-
  The body obligation of the fused kernel's pipeline: at every grid point, from the invariant and the twelve windows' buffers
  as the pipeline hands them, the body runs to the invariant of the next point and the buffers at what the proof data say.
  At the even points the body overwrites the scratch with the lower triangle of C, whatever it held; at the odd points it
  reads the triangle the point before left there and leaves it.
-/
import proofs.«131072_g2000702177497736_pallasbulk_855_6_alg».proof.Proof.BDats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch matrix as a memref. -/
abbrev scM : Memref sig .tc .vmem S1024x1024 .f32 := Memref.whole cc0_scratch0

/-- Before point 0 the scratch is held at some contents. -/
theorem PhiS_zero (c : Dev nD) : PhiS m c 0 = iprop(∃ d, owns (c : Thread nD τ) scM fullShare d) := by
  unfold PhiS; rw [scopedRest0_eq]; simp only [scM, owns_whole]; try rfl

/-- After any point it is held at the lower triangle of C. -/
theorem PhiS_succ (c : Dev nD) (n : ℕ) : PhiS m c (n + 1) = owns (c : Thread nD τ) scM fullShare (Lmat m c) := rfl

/-- Before any point but the first likewise. -/
theorem PhiS_pos (c : Dev nD) (n : ℕ) (hn : n ≠ 0) : PhiS m c n = owns (c : Thread nD τ) scM fullShare (Lmat m c) := by
  cases n with
  | zero => exact absurd rfl hn
  | succ n => rfl

/-- At any point the invariant yields the scratch at some contents. -/
theorem PhiS_some (c : Dev nD) (n : ℕ) : PhiS m c n ⊢ iprop(∃ d, owns (c : Thread nD τ) scM fullShare d) := by
  cases n with
  | zero => rw [PhiS_zero]
  | succ n => rw [PhiS_succ]; iintro H; iexists _; iexact H

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl,
    show (dats m 0 c).Φ t.succ = PhiS m c (t.val + 1) from rfl,
    show (dats m 0 c).Φ t.castSucc = PhiS m c t.val from rfl, PhiS_succ,
    after0, after1, after2, after3, after4, after5, after6, after7, after8, after9, after10, after11, iblk9_eq]
  by_cases h : t.val % 2 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HS := (PhiS_some m c t.val) $$ HΦ
    iapply (run_reset c Set.univ (grid0.coords t) _ _ _ _ _ _ _ _ _ _ _ _ _ _ _ _ _ _ _ _ _ _ _ _ _ _ ((isReset_iff t).mpr h) (iblk m c 0 t) (iblk m c 1 t) (iblk m c 2 t) (iblk m c 3 t) (iblk m c 4 t) (iblk m c 5 t) (iblk m c 6 t) (iblk m c 7 t) (iblk m c 8 t) (Cmat m c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexact HS
    iintro ⟨H0, H1, H2, H3, H4, H5, H6, H7, H8, H9, H10, H11, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [PhiS_pos m c t.val (fun h0 => h (by rw [h0]))]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_keep c Set.univ (grid0.coords t) _ _ _ _ _ _ _ _ _ _ _ _ _ _ _ _ _ _ _ _ _ _ _ _ _ _ (fun hc => h ((isReset_iff t).mp hc)) (iblk m c 0 t) (iblk m c 1 t) (iblk m c 2 t) (iblk m c 3 t) (iblk m c 4 t) (iblk m c 5 t) (iblk m c 6 t) (iblk m c 7 t) (iblk m c 8 t) (Cmat m c) (Lmat m c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HΦ]; · iexact HΦ
    iintro ⟨H0, H1, H2, H3, H4, H5, H6, H7, H8, H9, H10, H11, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BSplit.lean ====
/-
  The seven arrays of the fused kernel's pipeline, dealt to its twelve windows.

  Both evidence arrays are read through two windows each and the weight matrix through four; the bias, the parameter
  matrix and the two results through one window each. A buffer held whole at the full share is split along the share:
  into its left and right halves for two readers, and each half again for four. Reading leaves the contents alone, so
  every window holds its array at the entry contents.
-/
import proofs.«131072_g2000702177497736_pallasbulk_855_6_alg».proof.Proof.BDats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, one by one. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = bigSepL [main_arg0, main_arg1, main_arg2, main_arg3, main_arg4, main_v0_0, main_v0_1] fun b => ((c : Thread nD τ).loc b) ↦{fullShare} Vv b := by
  unfold Pipeline.arrBufs; exact bigSep_eq_bigSepL_of_eq _ (by decide) (by decide) _

/-- A buffer held at a share is held at its two halves. -/
theorem halves {ℓ : Loc nD τ sig} (f : Buf (Elt F) ℓ) (q : PosShare TreeShare) :
    (ℓ ↦{q} f : sProp 𝕄) ⊢ iprop((ℓ ↦{q.left} f) ∗ ℓ ↦{q.right} f) :=
  (pointsTo_share (PosShare.mem_left_op_right q)).1

/-- Each window's share of its array. -/
theorem share_eq (c : Dev nD) : ∀ w, (dats m 0 c).share w = shareOf w := by
  intro w; fin_cases w <;> rfl

/-- Before any write-back an array holds its entry contents. -/
theorem arrAt_zero (c : Dev nD) (w : Fin cfg0.W) : (dats m 0 c).arrAt w 0 = V m c (Pipeline.arrRef spec0 w) := rfl

theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq]
  unfold Dat.arrays
  rw [bigSep_W0]
  simp only [bigSepL, View.set_whole, share_eq, arrAt_zero]
  show iprop(((c : Thread nD τ).loc main_arg0 ↦{fullShare} V m c main_arg0) ∗ ((c : Thread nD τ).loc main_arg1 ↦{fullShare} V m c main_arg1)
      ∗ ((c : Thread nD τ).loc main_arg2 ↦{fullShare} V m c main_arg2) ∗ ((c : Thread nD τ).loc main_arg3 ↦{fullShare} V m c main_arg3)
      ∗ ((c : Thread nD τ).loc main_arg4 ↦{fullShare} V m c main_arg4) ∗ ((c : Thread nD τ).loc main_v0_0 ↦{fullShare} V m c main_v0_0)
      ∗ ((c : Thread nD τ).loc main_v0_1 ↦{fullShare} V m c main_v0_1)) ⊢ iprop(((c : Thread nD τ).loc main_arg0 ↦{fullShare.left} V m c main_arg0) ∗ ((c : Thread nD τ).loc main_arg0 ↦{fullShare.right} V m c main_arg0)
      ∗ ((c : Thread nD τ).loc main_arg1 ↦{fullShare.left} V m c main_arg1) ∗ ((c : Thread nD τ).loc main_arg1 ↦{fullShare.right} V m c main_arg1)
      ∗ ((c : Thread nD τ).loc main_arg2 ↦{fullShare.left.left} V m c main_arg2) ∗ ((c : Thread nD τ).loc main_arg2 ↦{fullShare.left.right} V m c main_arg2)
      ∗ ((c : Thread nD τ).loc main_arg2 ↦{fullShare.right.left} V m c main_arg2) ∗ ((c : Thread nD τ).loc main_arg2 ↦{fullShare.right.right} V m c main_arg2)
      ∗ ((c : Thread nD τ).loc main_arg3 ↦{fullShare} V m c main_arg3) ∗ ((c : Thread nD τ).loc main_arg4 ↦{fullShare} V m c main_arg4)
      ∗ ((c : Thread nD τ).loc main_v0_0 ↦{fullShare} V m c main_v0_0) ∗ ((c : Thread nD τ).loc main_v0_1 ↦{fullShare} V m c main_v0_1))
  iintro ⟨H0, H1, H2, H3, H4, H5, H6⟩
  ihave KH0 := (halves _ fullShare) $$ H0
  icases KH0 with ⟨H0a, H0b⟩
  ihave KH1 := (halves _ fullShare) $$ H1
  icases KH1 with ⟨H1a, H1b⟩
  ihave KH2 := (halves _ fullShare) $$ H2
  icases KH2 with ⟨H2l, H2r⟩
  ihave KH2l := (halves _ fullShare.left) $$ H2l
  icases KH2l with ⟨H2a, H2b⟩
  ihave KH2r := (halves _ fullShare.right) $$ H2r
  icases KH2r with ⟨H2c, H2d⟩
  isplitl [H0a]; · iexact H0a
  isplitl [H0b]; · iexact H0b
  isplitl [H1a]; · iexact H1a
  isplitl [H1b]; · iexact H1b
  isplitl [H2a]; · iexact H2a
  isplitl [H2b]; · iexact H2b
  isplitl [H2c]; · iexact H2c
  isplitl [H2d]; · iexact H2d
  isplitl [H3]; · iexact H3
  isplitl [H4]; · iexact H4
  isplitl [H5]; · iexact H5
  iexact H6

end Cert.Kernel.Hand

end
-- ==== Proof.BLaunch.lean ====
/-
  The run of the fused kernel's program: the one call, launched from any memory with zero counters, terminates, and at
  the end every array of its pipeline holds what the write-backs of the four points leave: an input array its launch
  contents (nothing writes it), a result the blocks the body left, point by point. The kernel signals no one and draws
  nothing from the random generator, so the region's invariant is the scratch matrix alone.
-/
import proofs.«131072_g2000702177497736_pallasbulk_855_6_alg».proof.Proof.BOblig
import proofs.«131072_g2000702177497736_pallasbulk_855_6_alg».proof.Proof.BSplit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program is the call and the return. -/
theorem main_eq (c : Dev nD) : main (F := F) c = (.op (.customCall (Pipeline.entry 0) ()) fun _ => .ret ⟨⟩) := rfl

set_option backward.isDefEq.respectTransparency.types false in
/-- Every weakly fair execution terminates with each window's array at the proof data's final contents. -/
theorem run_main :
    θ_run defs (onTc (τ := τ) (main (F := F))) ⟨m, fun _ => 0, ρ⟩ (fun r => ∀ c : Dev nD, ∀ w : Fin cfg0.W,
      r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := fun c b => m ((c.tc : Thread nD τ).loc b))
    (hmain := Pipeline.hmain_region cfgs 0 defs₀ Variants.none m main (main_eq (F := F)))
    (hsplit := hsplit m)
    (X := fun _ => iprop(emp)) (Y := fun _ => iprop(emp)) (Z := fun _ => iprop(emp))
    (hX := fun c => by
      rw [unscopedRest0_eq]
      iintro -; isplitl [] <;> iempintro)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => by
      rw [show (dats m 0 c).Φ (Fin.last cfg0.N) = PhiS m c (3 + 1) from rfl, PhiS_succ,
        show Pipeline.scopedRest (Ix := Unit) (Name := ℕ) (U := UR sig nD τ) (Lvl := ℕ) (Val := Elt F) (cfgs 0).spec c = PhiS m c 0 from rfl, PhiS_zero]
      iintro H
      isplitr; · iempintro
      iexists _; iexact H)
    (QY := fun _ _ => True)
    (hY := fun c s' => by
      iintro ⟨-, -, HSI⟩; imodintro
      isplitr; · ipureintro; trivial
      iexact HSI)
    (hQ := fun s h c w => (h c).1 w)

/-- The frame: the five argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c 0).trans ((dats m 0 c).arrAt_in 0 rfl _),
      (h c 2).trans ((dats m 0 c).arrAt_in 2 rfl _),
      (h c 4).trans ((dats m 0 c).arrAt_in 4 rfl _),
      (h c 8).trans ((dats m 0 c).arrAt_in 8 rfl _),
      (h c 9).trans ((dats m 0 c).arrAt_in 9 rfl _)⟩) (run_main m ρ)

/-- The run with the two results named: each ends at what the proof data compute from the write-backs. -/
theorem run_results :
    θ_run defs (onTc (τ := τ) (main (F := F))) ⟨m, fun _ => 0, ρ⟩ (fun r => ∀ c : Dev nD,
      r.2.mem ((c.tc : Thread nD τ).loc main_v0_0) = (dats m 0 c).arrAt 10 cfg0.N
      ∧ r.2.mem ((c.tc : Thread nD τ).loc main_v0_1) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c 10, h c 11,
      (h c 0).trans ((dats m 0 c).arrAt_in 0 rfl _),
      (h c 2).trans ((dats m 0 c).arrAt_in 2 rfl _),
      (h c 4).trans ((dats m 0 c).arrAt_in 4 rfl _),
      (h c 8).trans ((dats m 0 c).arrAt_in 8 rfl _),
      (h c 9).trans ((dats m 0 c).arrAt_in 9 rfl _)⟩) (run_main m ρ)

end Cert.Kernel.Hand

end
-- ==== Proof.KBody.lean ====
/-
  The fused kernel's body at one grid point, as a triple over whole staging memrefs.

  The body first tests whether the point is 0 or 2. If so it loads the parameter matrix C, keeps its lower triangle (entry
  (p, k) where k ≤ p, zero elsewhere) and stores that into the scratch matrix. Then, at every point, it stores into the
  mean's block the sum of four [2048, 256] × [256, 1024] products plus the bias row, loads rows 256·i … 256·i + 255 of the
  scratch and the whole scratch, and stores into the covariance's block the clamped product of those rows with the
  transpose of the whole, jitter on the diagonal. So there are two cases: the scratch is overwritten with the triangle of C
  (whatever it held), or it is read as it was left.
-/
import proofs.«131072_g2000702177497736_pallasbulk_855_6_alg».proof.Proof.Gen.KernelIdeal.Launch
import proofs.«131072_g2000702177497736_pallasbulk_855_6_alg».proof.Proof.Gen.KernelIdeal.Skeleton
import proofs.«131072_g2000702177497736_pallasbulk_855_6_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's test "the point is 0 or 2", from the grid coordinates. -/
abbrev isReset (i : grid0.Coords) : Prop :=
  (Scalar.cmpi .ne (Scalar.extui (Scalar.ori (Scalar.cmpi .eq (BitVec.ofNat 32 (i 0).val) 0#32) (Scalar.cmpi .eq (BitVec.ofNat 32 (i 0).val) 2#32))) 0#32) = 1#1

/-- It holds at the even points of the grid of four. -/
theorem isReset_iff : ∀ t : Fin cfg0.N, isReset (grid0.coords t) ↔ t.val % 2 = 0 :=
  (by decide +kernel : ∀ t : Fin grid0.N, isReset (grid0.coords t) ↔ t.val % 2 = 0)

/-- The rectangle of rows 256·i … 256·i + 255 of a [1024, 1024] matrix. -/
abbrev rowsRect (i : grid0.Coords) : Rect S1024x1024 := Rect.unit (s := S1024x1024) (k0_off1 i) S256x1024.size (Facts₀.k0_off1_inb i)

/-- Those rows of a matrix. -/
abbrev rowsOf (i : grid0.Coords) (X : Vec F S1024x1024 .f32) : Vec F S256x1024 .f32 := View.ld X (rowsRect i)

/-- Row p of the slice at point t is row 256·t + p of the matrix. -/
theorem rowsOf_apply (t : Fin cfg0.N) (X : Vec F S1024x1024 .f32) (p : Fin 256) (k : Fin 1024) :
    rowsOf (grid0.coords t) X (ValueIdx.ix2 p k) = X (ValueIdx.ix2 ⟨256 * t.val + p.val, by have := t.isLt; have h4 : cfg0.N = 4 := N_0; have := p.isLt; omega⟩ k) := by
  -- the rectangle's offsets at point t are (256·t, 0): the four points are evaluated
  have hoff : k0_off1 (grid0.coords t) = ![256 * t.val, 0] :=
    (by decide +kernel : ∀ t : Fin grid0.N, k0_off1 (grid0.coords t) = ![256 * t.val, 0]) t
  show X ((rowsRect (grid0.coords t)).idx (ValueIdx.ix2 p k)) = X _
  -- coordinate a of the rectangle's index is offset a + 1 · (coordinate a of (p, k)); axis by axis
  refine congrArg X (funext fun a => Fin.ext ?_)
  show k0_off1 (grid0.coords t) a + 1 * (ValueIdx.ix2 p k a).val = _
  rw [hoff, Nat.one_mul]
  match a with
  | ⟨0, _⟩ => rfl
  | ⟨1, _⟩ => exact Nat.zero_add _

/-- What the body stores into the mean's block, from the four evidence blocks, the four weight blocks and the bias row. -/
abbrev meanBlk (x1 x2 x3 x4 : Vec F S2048x256 .f32) (x5 x6 x7 x8 : Vec F S256x1024 .f32) (x9 : Vec F S1x1024 .f32)  : Vec F S2048x1024 .f32 :=
  k0_pay3 x1 x5 x2 x6 x3 x7 x4 x8 x9

/-- What the body stores into the covariance's block at coordinates i when the scratch reads Lm. -/
abbrev covBlk (i : grid0.Coords) (Lm : Vec F S1024x1024 .f32) : Vec F S256x1024 .f32 :=
  k0_pay1 (BitVec.ofNat 32 (i 0).val) (rowsOf i Lm) Lm

set_option maxHeartbeats 1000000 in
/-- At a point that is 0 or 2: from the ten input buffers at their contents and the two output buffers and the scratch at
    anything, the body ends with the inputs as they were, the mean's block, the covariance's block over the triangle of
    C, and the scratch at the triangle of C (x10 is the buffer of C). -/
theorem run_reset (c : Dev nD) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2048x1024 .f32) (harg11 : arg11.IsWhole) (arg12 : Memref sig .tc .vmem S256x1024 .f32) (harg12 : arg12.IsWhole) (arg13 : Memref sig .tc .vmem S1024x1024 .f32) (harg13 : arg13.IsWhole)
    (hc : isReset i) (x1 x2 x3 x4 : Vec F S2048x256 .f32) (x5 x6 x7 x8 : Vec F S256x1024 .f32) (x9 : Vec F S1x1024 .f32) (x10 : Vec F S1024x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (meanBlk x1 x2 x3 x4 x5 x6 x7 x8 x9) ∗ owns (c : Thread nD τ) arg12 fullShare (covBlk i (k0_pay2 x10)) ∗ owns (c : Thread nD τ) arg13 fullShare (k0_pay2 x10)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  -- a whole buffer's raw contents are determined by what it reads
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  have hz : (![0, 0] : Fin 2 → Nat) = fun _ => 0 := funext fun a => match a with | ⟨0, _⟩ => rfl | ⟨1, _⟩ => rfl
  -- the body's memory operations in order, the test decided by the hypothesis on the point
  sl_exec (disch := first | exact hc)
  sl_step
  iapply Hk
  -- the ten input buffers are handed back as they were
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    -- the mean's buffer: one store through the whole of it leaves its payload, and each of the nine loads through a
    -- whole buffer reads that buffer's contents
    rw [View.read_writes_eq_canon _ _ _ (fun y => ⟨_, List.mem_singleton_self _, View.mem_set_unit_zero hz Facts₀.inb_S2048x1024_S2048x1024_0_0 y⟩), View.canon_unit_zero hz]
    simp only [View.readAt_eq_ld, hf1, hf2, hf3, hf4, hf5, hf6, hf7, hf8, hf9, View.ld_unit_zero (S := S2048x256) hz, View.ld_unit_zero (S := S256x1024) hz, View.ld_unit_zero (S := S1x1024) hz]
  isplitl [H12]
  · iexists _; isplitr
    swap; · iexact H12
    ipureintro
    -- the covariance's buffer: one store through the whole of it
    rw [View.read_writes_eq_canon _ _ _ (fun y => ⟨_, List.mem_singleton_self _, View.mem_set_unit_zero hz Facts₀.inb_S256x1024_S256x1024_0_0 y⟩), View.canon_unit_zero hz]
    sl_unfold_run_names
    -- both loads of the scratch come after the store of the triangle through the whole of it: they read the triangle, the
    -- first at the rows' indices
    rw [View.readAt_writes_junk_eq_canon, View.readCov_unit_zero (S := S1024x1024) _ hz, View.canon_unit_zero hz]
    simp only [View.readAt_eq_ld, hf10, View.ld_unit_zero (S := S1024x1024) hz]
    rfl
  iexists _; isplitr
  swap; · iexact H13
  ipureintro
  sl_unfold_run_names
  -- the one store through the whole scratch leaves the triangle of what was loaded from the buffer of C
  rw [View.read_writes_junk_eq_canon, View.canon_unit_zero hz]
  simp only [View.readAt_eq_ld, hf10, View.ld_unit_zero (S := S1024x1024) hz]

set_option maxHeartbeats 1000000 in
/-- At a point that is 1 or 3: the same with the scratch read as it was left (contents Lm) and handed back unchanged. -/
theorem run_keep (c : Dev nD) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S2048x1024 .f32) (harg11 : arg11.IsWhole) (arg12 : Memref sig .tc .vmem S256x1024 .f32) (harg12 : arg12.IsWhole) (arg13 : Memref sig .tc .vmem S1024x1024 .f32) (harg13 : arg13.IsWhole)
    (hc : ¬ isReset i) (x1 x2 x3 x4 : Vec F S2048x256 .f32) (x5 x6 x7 x8 : Vec F S256x1024 .f32) (x9 : Vec F S1x1024 .f32) (x10 : Vec F S1024x1024 .f32) (Lm : Vec F S1024x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare Lm
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (meanBlk x1 x2 x3 x4 x5 x6 x7 x8 x9) ∗ owns (c : Thread nD τ) arg12 fullShare (covBlk i Lm) ∗ owns (c : Thread nD τ) arg13 fullShare Lm) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, Hk⟩
  -- a whole buffer's raw contents are determined by what it reads
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg13.eq_unread hf13
  have hz : (![0, 0] : Fin 2 → Nat) = fun _ => 0 := funext fun a => match a with | ⟨0, _⟩ => rfl | ⟨1, _⟩ => rfl
  -- the body's memory operations in order, the test decided by the hypothesis on the point
  sl_exec (disch := first | exact hc)
  sl_step
  iapply Hk
  -- the ten input buffers are handed back as they were
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    -- the mean's buffer: one store through the whole of it leaves its payload, and each of the nine loads through a
    -- whole buffer reads that buffer's contents
    rw [View.read_writes_eq_canon _ _ _ (fun y => ⟨_, List.mem_singleton_self _, View.mem_set_unit_zero hz Facts₀.inb_S2048x1024_S2048x1024_0_0 y⟩), View.canon_unit_zero hz]
    simp only [View.readAt_eq_ld, hf1, hf2, hf3, hf4, hf5, hf6, hf7, hf8, hf9, View.ld_unit_zero (S := S2048x256) hz, View.ld_unit_zero (S := S256x1024) hz, View.ld_unit_zero (S := S1x1024) hz]
  isplitl [H12]
  · iexists _; isplitr
    swap; · iexact H12
    ipureintro
    -- the covariance's buffer: one store through the whole of it; the rows and the whole of the scratch are loaded from
    -- the scratch as it was left
    rw [View.read_writes_eq_canon _ _ _ (fun y => ⟨_, List.mem_singleton_self _, View.mem_set_unit_zero hz Facts₀.inb_S256x1024_S256x1024_0_0 y⟩), View.canon_unit_zero hz]
    sl_unfold_run_names
    simp only [View.readAt_eq_ld, hf13, View.ld_unit_zero (S := S1024x1024) hz]
  -- the scratch is handed back unchanged
  iexists _; isplitr; · ipureintro; exact harg13.read_unread _
  iexact H13

end Cert.KernelIdeal.Hand

end
-- ==== Proof.KDats.lean ====
/-
  The proof data of the fused kernel's pipeline.

  The region is entered from the launch memory (the program is the one call). Each of the ten input windows holds, at every
  grid point, its block of its array: the four evidence windows are the two column halves of rows 2048·t … 2048·t + 2047 of
  each evidence array, the four weight windows the four row quarters of the weight matrix, the bias and the parameter
  matrix C whole. After the body at point t the mean's window holds the four-product sum over those blocks plus the bias,
  and the covariance's window the clamped product of rows 256·t … of the lower triangle L of C with the transpose of L.
  The scratch matrix holds L from the end of point 0 on: points 0 and 2 store it, points 1 and 3 leave it. Three arrays are
  read through several windows; each such window holds its array at a share: the two evidence arrays by halves, the
  weight matrix by quarters.
-/
import proofs.«131072_g2000702177497736_pallasbulk_855_6_alg».proof.Proof.KBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the region is entered: the launch memory. -/
abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The parameter matrix C. -/
abbrev Cmat (c : Dev nD) : Vec F S1024x1024 .f32 := V m c main_arg4
/-- Its lower triangle L, which the scratch carries. -/
abbrev Lmat (c : Dev nD) : Vec F S1024x1024 .f32 := k0_pay2 (Cmat m c)

/-- The shares: an array read through two windows is held by halves, through four by quarters. -/
abbrev shareOf : Fin 12 → PosShare TreeShare
  | ⟨0, _⟩ => fullShare.left | ⟨1, _⟩ => fullShare.right
  | ⟨2, _⟩ => fullShare.left | ⟨3, _⟩ => fullShare.right
  | ⟨4, _⟩ => fullShare.left.left | ⟨5, _⟩ => fullShare.left.right | ⟨6, _⟩ => fullShare.right.left | ⟨7, _⟩ => fullShare.right.right
  | _ => fullShare

/-- The invariant between points: before point 0 the scratch holds anything; afterwards the lower triangle of C. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) (Memref.whole cc0_scratch0 : Memref sig .tc .vmem S1024x1024 .f32) fullShare (Lmat m c)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => meanBlk (iblk m c 0 t) (iblk m c 1 t) (iblk m c 2 t) (iblk m c 3 t) (iblk m c 4 t) (iblk m c 5 t) (iblk m c 6 t) (iblk m c 7 t) (iblk m c 8 t)
    | ⟨11, _⟩ => covBlk (grid0.coords t) (Lmat m c)
  Φ t := PhiS m c t.val
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = meanBlk (iblk m c 0 t) (iblk m c 1 t) (iblk m c 2 t) (iblk m c 3 t) (iblk m c 4 t) (iblk m c 5 t) (iblk m c 6 t) (iblk m c 7 t) (iblk m c 8 t) := by dsimp only [dats]
theorem after11 (c : Dev nD) (t : Fin cfg0.N) : (dats m 0 c).after 11 t = covBlk (grid0.coords t) (Lmat m c) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)

/-- Window 9's block is the whole parameter matrix at every point. -/
theorem index9 : ∀ t : Fin cfg0.N, ∀ a : Fin 2, win0_9.index t a = 0 :=
  (by decide +kernel : ∀ t : Fin grid0.N, ∀ a : Fin 2, win0_9.index t a = 0)

theorem iblk9_eq (c : Dev nD) (t : Fin cfg0.N) : (iblk m c 9 t : Vec F S1024x1024 .f32) = Cmat m c := by
  funext y
  unfold iblk
  rw [View.read_apply]
  show V m c main_arg4 (((cfg0.win 9).blk t).view.emb y) = V m c main_arg4 y
  refine congrArg (V m c main_arg4) (funext fun a => Fin.ext ?_)
  show win0_9.index t a * S1024x1024.size a + 1 * (y a).val = (y a).val
  rw [index9 t a]; omega

end Cert.KernelIdeal.Hand

end
-- ==== Proof.KOblig.lean ====
/-
  The body obligation of the fused kernel's pipeline: at every grid point, from the invariant and the twelve windows' buffers
  as the pipeline hands them, the body runs to the invariant of the next point and the buffers at what the proof data say.
  At the even points the body overwrites the scratch with the lower triangle of C, whatever it held; at the odd points it
  reads the triangle the point before left there and leaves it.
-/
import proofs.«131072_g2000702177497736_pallasbulk_855_6_alg».proof.Proof.KDats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch matrix as a memref. -/
abbrev scM : Memref sig .tc .vmem S1024x1024 .f32 := Memref.whole cc0_scratch0

/-- Before point 0 the scratch is held at some contents. -/
theorem PhiS_zero (c : Dev nD) : PhiS m c 0 = iprop(∃ d, owns (c : Thread nD τ) scM fullShare d) := by
  unfold PhiS; rw [scopedRest0_eq]; simp only [scM, owns_whole]; try rfl

/-- After any point it is held at the lower triangle of C. -/
theorem PhiS_succ (c : Dev nD) (n : ℕ) : PhiS m c (n + 1) = owns (c : Thread nD τ) scM fullShare (Lmat m c) := rfl

/-- Before any point but the first likewise. -/
theorem PhiS_pos (c : Dev nD) (n : ℕ) (hn : n ≠ 0) : PhiS m c n = owns (c : Thread nD τ) scM fullShare (Lmat m c) := by
  cases n with
  | zero => exact absurd rfl hn
  | succ n => rfl

/-- At any point the invariant yields the scratch at some contents. -/
theorem PhiS_some (c : Dev nD) (n : ℕ) : PhiS m c n ⊢ iprop(∃ d, owns (c : Thread nD τ) scM fullShare d) := by
  cases n with
  | zero => rw [PhiS_zero]
  | succ n => rw [PhiS_succ]; iintro H; iexists _; iexact H

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl,
    show (dats m 0 c).Φ t.succ = PhiS m c (t.val + 1) from rfl,
    show (dats m 0 c).Φ t.castSucc = PhiS m c t.val from rfl, PhiS_succ,
    after0, after1, after2, after3, after4, after5, after6, after7, after8, after9, after10, after11, iblk9_eq]
  by_cases h : t.val % 2 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HS := (PhiS_some m c t.val) $$ HΦ
    iapply (run_reset c Set.univ (grid0.coords t) _ _ _ _ _ _ _ _ _ _ _ _ _ _ _ _ _ _ _ _ _ _ _ _ _ _ ((isReset_iff t).mpr h) (iblk m c 0 t) (iblk m c 1 t) (iblk m c 2 t) (iblk m c 3 t) (iblk m c 4 t) (iblk m c 5 t) (iblk m c 6 t) (iblk m c 7 t) (iblk m c 8 t) (Cmat m c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexact HS
    iintro ⟨H0, H1, H2, H3, H4, H5, H6, H7, H8, H9, H10, H11, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [PhiS_pos m c t.val (fun h0 => h (by rw [h0]))]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_keep c Set.univ (grid0.coords t) _ _ _ _ _ _ _ _ _ _ _ _ _ _ _ _ _ _ _ _ _ _ _ _ _ _ (fun hc => h ((isReset_iff t).mp hc)) (iblk m c 0 t) (iblk m c 1 t) (iblk m c 2 t) (iblk m c 3 t) (iblk m c 4 t) (iblk m c 5 t) (iblk m c 6 t) (iblk m c 7 t) (iblk m c 8 t) (Cmat m c) (Lmat m c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HΦ]; · iexact HΦ
    iintro ⟨H0, H1, H2, H3, H4, H5, H6, H7, H8, H9, H10, H11, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KSplit.lean ====
/-
  The seven arrays of the fused kernel's pipeline, dealt to its twelve windows.

  Both evidence arrays are read through two windows each and the weight matrix through four; the bias, the parameter
  matrix and the two results through one window each. A buffer held whole at the full share is split along the share:
  into its left and right halves for two readers, and each half again for four. Reading leaves the contents alone, so
  every window holds its array at the entry contents.
-/
import proofs.«131072_g2000702177497736_pallasbulk_855_6_alg».proof.Proof.KDats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, one by one. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = bigSepL [main_arg0, main_arg1, main_arg2, main_arg3, main_arg4, main_v0_0, main_v0_1] fun b => ((c : Thread nD τ).loc b) ↦{fullShare} Vv b := by
  unfold Pipeline.arrBufs; exact bigSep_eq_bigSepL_of_eq _ (by decide) (by decide) _

/-- A buffer held at a share is held at its two halves. -/
theorem halves {ℓ : Loc nD τ sig} (f : Buf (Elt F) ℓ) (q : PosShare TreeShare) :
    (ℓ ↦{q} f : sProp 𝕄) ⊢ iprop((ℓ ↦{q.left} f) ∗ ℓ ↦{q.right} f) :=
  (pointsTo_share (PosShare.mem_left_op_right q)).1

/-- Each window's share of its array. -/
theorem share_eq (c : Dev nD) : ∀ w, (dats m 0 c).share w = shareOf w := by
  intro w; fin_cases w <;> rfl

/-- Before any write-back an array holds its entry contents. -/
theorem arrAt_zero (c : Dev nD) (w : Fin cfg0.W) : (dats m 0 c).arrAt w 0 = V m c (Pipeline.arrRef spec0 w) := rfl

theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq]
  unfold Dat.arrays
  rw [bigSep_W0]
  simp only [bigSepL, View.set_whole, share_eq, arrAt_zero]
  show iprop(((c : Thread nD τ).loc main_arg0 ↦{fullShare} V m c main_arg0) ∗ ((c : Thread nD τ).loc main_arg1 ↦{fullShare} V m c main_arg1)
      ∗ ((c : Thread nD τ).loc main_arg2 ↦{fullShare} V m c main_arg2) ∗ ((c : Thread nD τ).loc main_arg3 ↦{fullShare} V m c main_arg3)
      ∗ ((c : Thread nD τ).loc main_arg4 ↦{fullShare} V m c main_arg4) ∗ ((c : Thread nD τ).loc main_v0_0 ↦{fullShare} V m c main_v0_0)
      ∗ ((c : Thread nD τ).loc main_v0_1 ↦{fullShare} V m c main_v0_1)) ⊢ iprop(((c : Thread nD τ).loc main_arg0 ↦{fullShare.left} V m c main_arg0) ∗ ((c : Thread nD τ).loc main_arg0 ↦{fullShare.right} V m c main_arg0)
      ∗ ((c : Thread nD τ).loc main_arg1 ↦{fullShare.left} V m c main_arg1) ∗ ((c : Thread nD τ).loc main_arg1 ↦{fullShare.right} V m c main_arg1)
      ∗ ((c : Thread nD τ).loc main_arg2 ↦{fullShare.left.left} V m c main_arg2) ∗ ((c : Thread nD τ).loc main_arg2 ↦{fullShare.left.right} V m c main_arg2)
      ∗ ((c : Thread nD τ).loc main_arg2 ↦{fullShare.right.left} V m c main_arg2) ∗ ((c : Thread nD τ).loc main_arg2 ↦{fullShare.right.right} V m c main_arg2)
      ∗ ((c : Thread nD τ).loc main_arg3 ↦{fullShare} V m c main_arg3) ∗ ((c : Thread nD τ).loc main_arg4 ↦{fullShare} V m c main_arg4)
      ∗ ((c : Thread nD τ).loc main_v0_0 ↦{fullShare} V m c main_v0_0) ∗ ((c : Thread nD τ).loc main_v0_1 ↦{fullShare} V m c main_v0_1))
  iintro ⟨H0, H1, H2, H3, H4, H5, H6⟩
  ihave KH0 := (halves _ fullShare) $$ H0
  icases KH0 with ⟨H0a, H0b⟩
  ihave KH1 := (halves _ fullShare) $$ H1
  icases KH1 with ⟨H1a, H1b⟩
  ihave KH2 := (halves _ fullShare) $$ H2
  icases KH2 with ⟨H2l, H2r⟩
  ihave KH2l := (halves _ fullShare.left) $$ H2l
  icases KH2l with ⟨H2a, H2b⟩
  ihave KH2r := (halves _ fullShare.right) $$ H2r
  icases KH2r with ⟨H2c, H2d⟩
  isplitl [H0a]; · iexact H0a
  isplitl [H0b]; · iexact H0b
  isplitl [H1a]; · iexact H1a
  isplitl [H1b]; · iexact H1b
  isplitl [H2a]; · iexact H2a
  isplitl [H2b]; · iexact H2b
  isplitl [H2c]; · iexact H2c
  isplitl [H2d]; · iexact H2d
  isplitl [H3]; · iexact H3
  isplitl [H4]; · iexact H4
  isplitl [H5]; · iexact H5
  iexact H6

end Cert.KernelIdeal.Hand

end
-- ==== Proof.KLaunch.lean ====
/-
  The run of the fused kernel's program: the one call, launched from any memory with zero counters, terminates, and at
  the end every array of its pipeline holds what the write-backs of the four points leave: an input array its launch
  contents (nothing writes it), a result the blocks the body left, point by point. The kernel signals no one and draws
  nothing from the random generator, so the region's invariant is the scratch matrix alone.
-/
import proofs.«131072_g2000702177497736_pallasbulk_855_6_alg».proof.Proof.KOblig
import proofs.«131072_g2000702177497736_pallasbulk_855_6_alg».proof.Proof.KSplit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program is the call and the return. -/
theorem main_eq (c : Dev nD) : main (F := F) c = (.op (.customCall (Pipeline.entry 0) ()) fun _ => .ret ⟨⟩) := rfl

set_option backward.isDefEq.respectTransparency.types false in
/-- Every weakly fair execution terminates with each window's array at the proof data's final contents. -/
theorem run_main :
    θ_run defs (onTc (τ := τ) (main (F := F))) ⟨m, fun _ => 0, ρ⟩ (fun r => ∀ c : Dev nD, ∀ w : Fin cfg0.W,
      r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := fun c b => m ((c.tc : Thread nD τ).loc b))
    (hmain := Pipeline.hmain_region cfgs 0 defs₀ Variants.none m main (main_eq (F := F)))
    (hsplit := hsplit m)
    (X := fun _ => iprop(emp)) (Y := fun _ => iprop(emp)) (Z := fun _ => iprop(emp))
    (hX := fun c => by
      rw [unscopedRest0_eq]
      iintro -; isplitl [] <;> iempintro)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => by
      rw [show (dats m 0 c).Φ (Fin.last cfg0.N) = PhiS m c (3 + 1) from rfl, PhiS_succ,
        show Pipeline.scopedRest (Ix := Unit) (Name := ℕ) (U := UR sig nD τ) (Lvl := ℕ) (Val := Elt F) (cfgs 0).spec c = PhiS m c 0 from rfl, PhiS_zero]
      iintro H
      isplitr; · iempintro
      iexists _; iexact H)
    (QY := fun _ _ => True)
    (hY := fun c s' => by
      iintro ⟨-, -, HSI⟩; imodintro
      isplitr; · ipureintro; trivial
      iexact HSI)
    (hQ := fun s h c w => (h c).1 w)

/-- The frame: the five argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c 0).trans ((dats m 0 c).arrAt_in 0 rfl _),
      (h c 2).trans ((dats m 0 c).arrAt_in 2 rfl _),
      (h c 4).trans ((dats m 0 c).arrAt_in 4 rfl _),
      (h c 8).trans ((dats m 0 c).arrAt_in 8 rfl _),
      (h c 9).trans ((dats m 0 c).arrAt_in 9 rfl _)⟩) (run_main m ρ)

/-- The run with the two results named: each ends at what the proof data compute from the write-backs. -/
theorem run_results :
    θ_run defs (onTc (τ := τ) (main (F := F))) ⟨m, fun _ => 0, ρ⟩ (fun r => ∀ c : Dev nD,
      r.2.mem ((c.tc : Thread nD τ).loc main_v0_0) = (dats m 0 c).arrAt 10 cfg0.N
      ∧ r.2.mem ((c.tc : Thread nD τ).loc main_v0_1) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c 10, h c 11,
      (h c 0).trans ((dats m 0 c).arrAt_in 0 rfl _),
      (h c 2).trans ((dats m 0 c).arrAt_in 2 rfl _),
      (h c 4).trans ((dats m 0 c).arrAt_in 4 rfl _),
      (h c 8).trans ((dats m 0 c).arrAt_in 8 rfl _),
      (h c 9).trans ((dats m 0 c).arrAt_in 9 rfl _)⟩) (run_main m ρ)

end Cert.KernelIdeal.Hand

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Spec.lean ====
/-
  What the two programs compute, as functions of the argument arrays over the extended reals.

  * the mean: the two evidence arrays [8192, 512] laid side by side along the lanes give a row of 1024 entries; the
    result at (r, c) is the sum over k < 1024 of that row's entry k times the weight at (k, c), plus the bias at (0, c);
  * the covariance: with L the lower triangle of the parameter matrix (entry (p, k) kept when k ≤ p, zero above the
    diagonal), the result at (p, q) is the larger of zero and the sum over k of L(p, k) · L(q, k), the jitter word's value
    added on the diagonal.

  Also here: a sum over 1024 terms is the sum of its four quarters of 256 terms, in any commutative monoid.
-/
import Idealize.ShloMosaic.PureOps.Ideal
import Idealize.ShloMosaic.Lib.ValueIdx

noncomputable section

namespace Cert.Spec

open Idealize.ShloMosaic Idealize.ShloMosaic.ValueIdx

abbrev SEv : Shape := ⟨2, ![8192, 512]⟩
abbrev SSq : Shape := ⟨2, ![1024, 1024]⟩
abbrev SBias : Shape := ⟨2, ![1, 1024]⟩
abbrev SMean : Shape := ⟨2, ![8192, 1024]⟩

/-- The jitter added on the diagonal: the value of the word both programs print. -/
abbrev eps : EReal := Ideal.ofBits .f32 0x322BCC77#32

/-- Entry k of row r of the two evidence arrays laid side by side. -/
def cat (e0 e1 : SEv.Idx → EReal) (r : Fin 8192) (k : Fin 1024) : EReal :=
  if h : k.val < 512 then e0 (ix2 r ⟨k.val, h⟩) else e1 (ix2 r ⟨k.val - 512, by have := k.isLt; omega⟩)

/-- The mean at (r, c). -/
def meanAt (e0 e1 : SEv.Idx → EReal) (w : SSq.Idx → EReal) (b : SBias.Idx → EReal) (r : Fin 8192) (c : Fin 1024) : EReal :=
  (∑ k : Fin 1024, cat e0 e1 r k * w (ix2 k c)) + b (ix2 0 c)

/-- The mean as an array. -/
def meanG (e0 e1 : SEv.Idx → EReal) (w : SSq.Idx → EReal) (b : SBias.Idx → EReal) : SMean.Idx → EReal :=
  fun i => meanAt e0 e1 w b (i 0) (i 1)

theorem meanG_ix2 (e0 e1 : SEv.Idx → EReal) (w : SSq.Idx → EReal) (b : SBias.Idx → EReal) (r : Fin 8192) (c : Fin 1024) :
    meanG e0 e1 w b (ix2 r c) = meanAt e0 e1 w b r c := rfl

/-- The lower triangle of C at (p, k). -/
def tril (C : SSq.Idx → EReal) (p k : Fin 1024) : EReal := if k.val ≤ p.val then C (ix2 p k) else 0

/-- The covariance at (p, q). -/
def covAt (C : SSq.Idx → EReal) (p q : Fin 1024) : EReal :=
  max ((∑ k : Fin 1024, tril C p k * tril C q k) + (if p.val = q.val then eps else 0)) 0

/-- The covariance as an array. -/
def covG (C : SSq.Idx → EReal) : SSq.Idx → EReal := fun i => covAt C (i 0) (i 1)

theorem covG_ix2 (C : SSq.Idx → EReal) (p q : Fin 1024) : covG C (ix2 p q) = covAt C p q := rfl

/-- A sum of 1024 terms by quarters. -/
theorem sum_quarters {M : Type} [AddCommMonoid M] (f : Fin 1024 → M) :
    ∑ k : Fin 1024, f k
      = (((∑ k : Fin 256, f ⟨k.val, by have := k.isLt; omega⟩) + ∑ k : Fin 256, f ⟨256 + k.val, by have := k.isLt; omega⟩)
          + ∑ k : Fin 256, f ⟨512 + k.val, by have := k.isLt; omega⟩) + ∑ k : Fin 256, f ⟨768 + k.val, by have := k.isLt; omega⟩ := by
  -- a sum over a + b terms is the sum of the first a terms plus the sum of the last b terms
  have split : ∀ (a b : ℕ) (g : Fin (a + b) → M),
      ∑ k : Fin (a + b), g k
        = (∑ k : Fin a, g ⟨k.val, by have := k.isLt; omega⟩) + ∑ k : Fin b, g ⟨a + k.val, by have := k.isLt; omega⟩ := by
    intro a b g
    rw [Fin.sum_univ_add]
    rfl
  -- 1024 = 768 + 256, 768 = 512 + 256, 512 = 256 + 256
  have h1 := split 768 256 f
  have h2 := split 512 256 (fun k => f ⟨k.val, by have := k.isLt; omega⟩)
  have h3 := split 256 256 (fun k => f ⟨k.val, by have := k.isLt; omega⟩)
  exact h1.trans (congrArg (· + _) (h2.trans (congrArg (· + _) h3)))

end Cert.Spec

end
-- ==== Proof.KMeanPay.lean ====
/-
  The mean's block as the first program computes it, read at an element, over the extended reals.

  One block of 2048 rows is the sum, taken left to right, of four matrix products `[2048, 256] × [256, 1024]` into the
  zero word (one per quarter of the 1024 contracted entries), plus the bias row `[1, 1024]` repeated down the rows. At
  `(p, q)` that is the four sums over `k < 256` of `xᵢ(p, k) · wᵢ(k, q)`, added in order, plus `b(0, q)`.
-/
import proofs.«131072_g2000702177497736_pallasbulk_855_6_alg».proof.Proof.Gen.KernelIdeal.Skeleton
import proofs.«131072_g2000702177497736_pallasbulk_855_6_alg».proof.Proof.LibRowwise
import proofs.«131072_g2000702177497736_pallasbulk_855_6_alg».proof.Proof.Spec

noncomputable section

namespace Cert.KernelIdeal.MeanPay

open Idealize.ShloMosaic Idealize.ShloMosaic.ValueIdx Cert.KernelIdeal Cert.KernelIdeal.Gen

variable [Cert.KernelIdeal.Facts]

/-- The product's dimension numbers contract the left operand's lanes with the right operand's rows and have no batch
    axes: the plain record. -/
theorem dot_eq_plain : dot_S2048x256_S256x1024_S2048x1024_1_0_0_1_n_n = DotDims.plain 2048 256 1024 :=
  Cert.Lib.Rowwise.eq_plain _ rfl rfl rfl rfl rfl rfl

/-- One quarter's product into the zero word, at `(p, q)`. -/
theorem quarter_apply (x : Vec Ideal S2048x256 .f32) (w : Vec Ideal S256x1024 .f32) (p : Fin 2048) (q : Fin 1024) :
    matmul (φ₁ := .f32) (φ₂ := .f32) dot_S2048x256_S256x1024_S2048x1024_1_0_0_1_n_n none x w
        (constant (F := Ideal) S2048x1024 .f32 0x00000000#32) (ix2 p q)
      = ∑ k : Fin 256, x (ix2 p k) * w (ix2 k q) := by
  rw [dot_eq_plain]
  exact Cert.Lib.Rowwise.plain_matmul_zero_apply none x w p q

/-- The bias row repeated down the rows, at `(p, q)`: the row's entry `q`. -/
theorem biasRows_apply (b : Vec Ideal S1x1024 .f32) (h : S1x1024.Broadcasts S2048x1024) (p : Fin 2048) (q : Fin 1024) :
    broadcastTo S2048x1024 b h (ix2 p q) = b (ix2 0 q) := by
  refine broadcastTo_apply b h (ix2 p q) (ix2 0 q) fun a => ?_
  match a with
  | ⟨0, _⟩ => exact (if_pos rfl).symm
  | ⟨1, _⟩ => exact (if_neg (show ¬ ((1024 : Nat) = 1) by decide)).symm

/-- The block at `(p, q)`: the four quarter sums, added left to right, plus the bias at `(0, q)`. -/
theorem pay3_apply (x0 x1 x2 x3 : Vec Ideal S2048x256 .f32) (w0 w1 w2 w3 : Vec Ideal S256x1024 .f32) (b : Vec Ideal S1x1024 .f32)
    (p : Fin 2048) (q : Fin 1024) :
    k0_pay3 (F := Ideal) x0 w0 x1 w1 x2 w2 x3 w3 b (ix2 p q)
      = ((((∑ k : Fin 256, x0 (ix2 p k) * w0 (ix2 k q)) + ∑ k : Fin 256, x1 (ix2 p k) * w1 (ix2 k q))
            + ∑ k : Fin 256, x2 (ix2 p k) * w2 (ix2 k q)) + ∑ k : Fin 256, x3 (ix2 p k) * w3 (ix2 k q)) + b (ix2 0 q) := by
  unfold k0_pay3
  show ((((matmul dot_S2048x256_S256x1024_S2048x1024_1_0_0_1_n_n none x0 w0 (constant (F := Ideal) S2048x1024 .f32 0x00000000#32) (ix2 p q)
            + matmul dot_S2048x256_S256x1024_S2048x1024_1_0_0_1_n_n none x1 w1 (constant (F := Ideal) S2048x1024 .f32 0x00000000#32) (ix2 p q))
          + matmul dot_S2048x256_S256x1024_S2048x1024_1_0_0_1_n_n none x2 w2 (constant (F := Ideal) S2048x1024 .f32 0x00000000#32) (ix2 p q))
        + matmul dot_S2048x256_S256x1024_S2048x1024_1_0_0_1_n_n none x3 w3 (constant (F := Ideal) S2048x1024 .f32 0x00000000#32) (ix2 p q))
      + broadcastTo S2048x1024 b Facts₀.broadcasts_S1x1024_S2048x1024 (ix2 p q)) = _
  rw [quarter_apply, quarter_apply, quarter_apply, quarter_apply, biasRows_apply]

end Cert.KernelIdeal.MeanPay

end
-- ==== Proof.LibGram.lean ====
/-
  A product of a matrix with the TRANSPOSE of another, at the extended reals, for any sizes.

  The dimension numbers that contract the left operand's axis 1 with the right operand's axis 1 (no batch axes) send
  `[M, K] × [N, K]` to `[M, N]`: the result at `(p, q)` pairs row `p` of the left operand with row `q` of the right
  one. Into a zero accumulator this is `∑ₖ a(p, k) · b(q, k)` — with `a = b` the Gram matrix of the rows.

  A dimension-numbers record with these six lists IS the library's `DotDims.transposedRhs` (`eq_transposedRhs`), so the
  product lemma serves every such record a program prints (`gram_matmul_zero_apply`).
-/
import Idealize.ShloMosaic.PureOps.Ideal.Laws
import Idealize.ShloMosaic.Lib.ValueIdx
import Idealize.ShloMosaic.Lib.Pipeline.Value

noncomputable section

namespace Cert.Lib.Gram

open Idealize.ShloMosaic Idealize.ShloMosaic.ValueIdx

variable {M N K : Nat}

/-- A record over `[M, K]`, `[N, K]`, `[M, N]` whose six lists are the transposed-right product's is that record. -/
theorem eq_transposedRhs (D : DotDims ⟨2, ![M, K]⟩ ⟨2, ![N, K]⟩ ⟨2, ![M, N]⟩) (h1 : D.lhsContracting = [1])
    (h2 : D.rhsContracting = [1]) (h3 : D.lhsNonContracting = [0]) (h4 : D.rhsNonContracting = [0]) (h5 : D.lhsBatch = [])
    (h6 : D.rhsBatch = []) : D = DotDims.transposedRhs M K N := by
  cases D
  simp only at h1 h2 h3 h4 h5 h6
  subst h1 h2 h3 h4 h5 h6
  rfl

/-- The left operand's row is the result's row … -/
theorem transposedRhs_lhs0 (j : (⟨2, ![M, N]⟩ : Shape).Idx) (c : (DotDims.transposedRhs M K N).contr.Idx) :
    ((DotDims.transposedRhs M K N).lhsIdx j c 0).val = (j 0).val := rfl
/-- … its column the contracted coordinate; -/
theorem transposedRhs_lhs1 (j : (⟨2, ![M, N]⟩ : Shape).Idx) (c : (DotDims.transposedRhs M K N).contr.Idx) :
    ((DotDims.transposedRhs M K N).lhsIdx j c 1).val = (c ⟨0, Nat.one_pos⟩).val := rfl
/-- the right operand's ROW is the result's column … -/
theorem transposedRhs_rhs0 (j : (⟨2, ![M, N]⟩ : Shape).Idx) (c : (DotDims.transposedRhs M K N).contr.Idx) :
    ((DotDims.transposedRhs M K N).rhsIdx j c 0).val = (j 1).val := rfl
/-- … and its column the contracted coordinate. -/
theorem transposedRhs_rhs1 (j : (⟨2, ![M, N]⟩ : Shape).Idx) (c : (DotDims.transposedRhs M K N).contr.Idx) :
    ((DotDims.transposedRhs M K N).rhsIdx j c 1).val = (c ⟨0, Nat.one_pos⟩).val := rfl

/-- The transposed-right product into the zero word, read at `(p, q)`: row `p` of the left operand against row `q` of
    the right one. -/
theorem transposedRhs_matmul_zero_apply {φ₁ φ₂ : FTy} (prec : Option ContractPrecision) (a : FVec Ideal ⟨2, ![M, K]⟩ φ₁)
    (b : FVec Ideal ⟨2, ![N, K]⟩ φ₂) (p : Fin M) (q : Fin N) :
    FloatOps.matmul (DotDims.transposedRhs M K N) prec a b (constant ⟨2, ![M, N]⟩ .f32 0x00000000#32) (ix2 p q)
      = ∑ k : Fin K, a (ix2 p k) * b (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k :=
    funext fun a => Fin.ext (by
      match a with
      | ⟨0, _⟩ => exact transposedRhs_lhs0 _ _
      | ⟨1, _⟩ => exact (transposedRhs_lhs1 _ _).trans hk)
  have er : (DotDims.transposedRhs M K N).rhsIdx (ix2 p q) ((contrEquiv1 (DotDims.transposedRhs M K N) K rfl rfl).symm k)
      = ix2 q k :=
    funext fun a => Fin.ext (by
      match a with
      | ⟨0, _⟩ => exact transposedRhs_rhs0 _ _
      | ⟨1, _⟩ => exact (transposedRhs_rhs1 _ _).trans hk)
  rw [el, er]

/-- ANY record that contracts axis 1 of `[M, K]` with axis 1 of `[N, K]` (no batch axes), into the zero word, read at
    `(p, q)`: `∑ₖ a(p, k) · b(q, k)`. -/
theorem gram_matmul_zero_apply {φ₁ φ₂ : FTy} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = []) (prec : Option ContractPrecision)
    (a : FVec Ideal ⟨2, ![M, K]⟩ φ₁) (b : FVec Ideal ⟨2, ![N, K]⟩ φ₂) (p : Fin M) (q : Fin N) :
    FloatOps.matmul D prec a b (constant ⟨2, ![M, N]⟩ .f32 0x00000000#32) (ix2 p q) = ∑ k : Fin K, a (ix2 p k) * b (ix2 q k) := by
  rw [eq_transposedRhs D h1 h2 h3 h4 h5 h6]
  exact transposedRhs_matmul_zero_apply prec a b p q

end Cert.Lib.Gram

end
-- ==== Proof.LibMask.lean ====
/-
  Index masks of a rank-2 vector, read at an element, for any sizes.

  A program builds a mask from the row number (an iota along axis 0), the lane number (an iota along axis 1), an integer
  comparison of the two as 32-bit words and a select. While the extents stay below 2³¹ the words are the coordinates
  themselves, a signed comparison of the words is the comparison of the coordinates, and the select is an `if`:

    * `iota0_apply`, `iota1_apply`: the two iotas at `(p, q)` are the words of `p` and of `q`;
    * `sle_ofNat`, `eq_ofNat`: the signed "at most" and the equality of two small words are those of the numbers;
    * `addi_ofNat`, `muli_ofNat`: a sum and a product of words of numbers are the words of the sum and the product;
    * `select_of_iff`: a select on a bit that is set exactly when `P` holds is `if P`;
    * `lowerTri_select_apply`: the select on "lane ≤ row" keeps the first operand on and below the diagonal;
    * `diag_select_apply`: the select on "row = lane" keeps the first operand on the diagonal;
    * `diagFrom_select_apply`: the same with the rows numbered from `m`: the select on "m + row = lane".
-/
import Idealize.ShloMosaic.Lib.ValueIdx
import Idealize.ShloMosaic.Lib.Pipeline.Value
import Idealize.ShloMosaic.Lib.StableHlo.Predicate

noncomputable section

namespace Cert.Lib.Mask

open Idealize.ShloMosaic Idealize.ShloMosaic.ValueIdx

/-! ## Words of small numbers -/

/-- The signed "at most" of the words of two numbers below 2³¹ is the "at most" of the numbers. -/
theorem sle_ofNat {a b : Nat} (ha : a < 2 ^ 31) (hb : b < 2 ^ 31) :
    IntOp.cmpi .sle (BitVec.ofNat 32 a) (BitVec.ofNat 32 b) = 1#1 ↔ a ≤ b := by
  unfold IntOp.cmpi
  exact StableHlo.Predicate.sle_ofNat_iff a b ha hb

/-- The equality of the words of two numbers below 2³² is the equality of the numbers. -/
theorem eq_ofNat {a b : Nat} (ha : a < 2 ^ 32) (hb : b < 2 ^ 32) :
    IntOp.cmpi .eq (BitVec.ofNat 32 a) (BitVec.ofNat 32 b) = 1#1 ↔ a = b := by
  rw [StableHlo.Predicate.cmpi_eq_iff]
  constructor
  · intro h
    have h' := congrArg BitVec.toNat h
    rw [BitVec.toNat_ofNat, BitVec.toNat_ofNat, Nat.mod_eq_of_lt ha, Nat.mod_eq_of_lt hb] at h'
    exact h'
  · intro h
    rw [h]

/-- The sum of the words of two numbers is the word of the sum. -/
theorem addi_ofNat (a b : Nat) : IntOp.addi (BitVec.ofNat 32 a) (BitVec.ofNat 32 b) = BitVec.ofNat 32 (a + b) :=
  (BitVec.ofNat_add a b).symm

/-- The product of the words of two numbers is the word of the product. -/
theorem muli_ofNat (a b : Nat) : Scalar.muli (BitVec.ofNat 32 a) (BitVec.ofNat 32 b) = BitVec.ofNat 32 (a * b) :=
  (BitVec.ofNat_mul a b).symm

/-- A select on a bit that is set exactly when `P` holds is `if P`. -/
theorem select_of_iff {α : Type} (c : BitVec 1) (P : Prop) [Decidable P] (h : c = 1#1 ↔ P) (a b : α) :
    Scalar.select c a b = if P then a else b := by
  by_cases hp : P
  · rw [if_pos hp, h.mpr hp]
    exact select_one a b
  · rw [if_neg hp, eq_zero_of_ne_one (fun hc => hp (h.mp hc))]
    exact select_zero a b

/-! ## The two iotas and the masks at an element -/

section Rank2

variable {A B : Nat} {α : Type}

/-- The iota along the rows at `(p, q)` is the word of `p`. -/
theorem iota0_apply (κ : Kind) (w : Nat) (h : (⟨2, ![A, B]⟩ : Shape).Iotas κ w [0]) (p : Fin A) (q : Fin B) :
    iota κ ⟨2, ![A, B]⟩ w [0] h (ix2 p q) = BitVec.ofNat w p.val :=
  iota_single_apply κ ⟨2, ![A, B]⟩ w 0 h (ix2 p q)

/-- The iota along the lanes at `(p, q)` is the word of `q`. -/
theorem iota1_apply (κ : Kind) (w : Nat) (h : (⟨2, ![A, B]⟩ : Shape).Iotas κ w [1]) (p : Fin A) (q : Fin B) :
    iota κ ⟨2, ![A, B]⟩ w [1] h (ix2 p q) = BitVec.ofNat w q.val :=
  iota_single_apply κ ⟨2, ![A, B]⟩ w 1 h (ix2 p q)

/-- The select on "lane ≤ row" (signed, on 32-bit words) keeps its first operand on and below the diagonal. -/
theorem lowerTri_select_apply (κ : Kind) (hA : A ≤ 2 ^ 31) (hB : B ≤ 2 ^ 31)
    (h0 : (⟨2, ![A, B]⟩ : Shape).Iotas κ 32 [0]) (h1 : (⟨2, ![A, B]⟩ : Shape).Iotas κ 32 [1])
    (x y : (⟨2, ![A, B]⟩ : Shape).Idx → α) (p : Fin A) (q : Fin B) :
    select (cmpi .sle (iota κ ⟨2, ![A, B]⟩ 32 [1] h1) (iota κ ⟨2, ![A, B]⟩ 32 [0] h0)) x y (ix2 p q)
      = if q.val ≤ p.val then x (ix2 p q) else y (ix2 p q) := by
  rw [select_apply]
  refine select_of_iff _ _ ?_ _ _
  show IntOp.cmpi .sle (iota κ ⟨2, ![A, B]⟩ 32 [1] h1 (ix2 p q)) (iota κ ⟨2, ![A, B]⟩ 32 [0] h0 (ix2 p q)) = 1#1 ↔ _
  rw [iota1_apply, iota0_apply]
  exact sle_ofNat (by have := q.isLt; omega) (by have := p.isLt; omega)

/-- The select on "row = lane" keeps its first operand on the diagonal. -/
theorem diag_select_apply (κ : Kind) (hA : A ≤ 2 ^ 32) (hB : B ≤ 2 ^ 32)
    (h0 : (⟨2, ![A, B]⟩ : Shape).Iotas κ 32 [0]) (h1 : (⟨2, ![A, B]⟩ : Shape).Iotas κ 32 [1])
    (x y : (⟨2, ![A, B]⟩ : Shape).Idx → α) (p : Fin A) (q : Fin B) :
    select (cmpi .eq (iota κ ⟨2, ![A, B]⟩ 32 [0] h0) (iota κ ⟨2, ![A, B]⟩ 32 [1] h1)) x y (ix2 p q)
      = if p.val = q.val then x (ix2 p q) else y (ix2 p q) := by
  rw [select_apply]
  refine select_of_iff _ _ ?_ _ _
  show IntOp.cmpi .eq (iota κ ⟨2, ![A, B]⟩ 32 [0] h0 (ix2 p q)) (iota κ ⟨2, ![A, B]⟩ 32 [1] h1 (ix2 p q)) = 1#1 ↔ _
  rw [iota0_apply, iota1_apply]
  exact eq_ofNat (by have := p.isLt; omega) (by have := q.isLt; omega)

/-- With the rows numbered from `m` (the word of `m` broadcast and added to the row iota, no wrap), the select on
    "m + row = lane" keeps its first operand where the lane is the row's number. -/
theorem diagFrom_select_apply (κ : Kind) (m : Nat) (hA : m + A ≤ 2 ^ 32) (hB : B ≤ 2 ^ 32)
    (h0 : (⟨2, ![A, B]⟩ : Shape).Iotas κ 32 [0]) (h1 : (⟨2, ![A, B]⟩ : Shape).Iotas κ 32 [1])
    (x y : (⟨2, ![A, B]⟩ : Shape).Idx → α) (p : Fin A) (q : Fin B) :
    select (cmpi .eq (addi (broadcast ⟨2, ![A, B]⟩ (BitVec.ofNat 32 m)) (iota κ ⟨2, ![A, B]⟩ 32 [0] h0))
        (iota κ ⟨2, ![A, B]⟩ 32 [1] h1)) x y (ix2 p q)
      = if m + p.val = q.val then x (ix2 p q) else y (ix2 p q) := by
  rw [select_apply]
  refine select_of_iff _ _ ?_ _ _
  show IntOp.cmpi .eq (IntOp.addi (BitVec.ofNat 32 m) (iota κ ⟨2, ![A, B]⟩ 32 [0] h0 (ix2 p q)))
      (iota κ ⟨2, ![A, B]⟩ 32 [1] h1 (ix2 p q)) = 1#1 ↔ _
  rw [iota0_apply, iota1_apply, addi_ofNat]
  exact eq_ofNat (by have := p.isLt; omega) (by have := q.isLt; omega)

end Rank2

end Cert.Lib.Mask

end
-- ==== Proof.KCovPay.lean ====
/-
  The covariance's two stored values of the kernel, read at an element, at the extended reals.

    * the parameter matrix with its upper triangle zeroed: at `(p, k)` the entry when `k ≤ p`, else zero
      (`Cert.Spec.tril`);
    * a block of 256 rows of the covariance: rows `256·n … 256·n + 255` of the lower triangle `L` against all 1024 rows
      of `L` — at `(p, q)` the sum over `k` of `rows(p, k) · L(q, k)` —, the jitter added where the row's number
      `256·n + p` is the lane `q`, and the larger of that and zero.
-/
import proofs.«131072_g2000702177497736_pallasbulk_855_6_alg».proof.Proof.Gen.KernelIdeal.Skeleton
import proofs.«131072_g2000702177497736_pallasbulk_855_6_alg».proof.Proof.LibGram
import proofs.«131072_g2000702177497736_pallasbulk_855_6_alg».proof.Proof.LibMask
import proofs.«131072_g2000702177497736_pallasbulk_855_6_alg».proof.Proof.Spec

noncomputable section

namespace Cert.KernelIdeal.CovPay

open Idealize.ShloMosaic Idealize.ShloMosaic.ValueIdx Cert.KernelIdeal Cert.KernelIdeal.Gen

variable [Cert.KernelIdeal.Facts]

/-- The stored lower triangle at `(p, k)`: the select on "lane ≤ row" between the matrix and the zero word. -/
theorem pay2_apply (C : Vec Ideal S1024x1024 .f32) (p k : Fin 1024) :
    k0_pay2 (F := Ideal) C (ix2 p k) = Cert.Spec.tril C p k := by
  unfold k0_pay2
  show shapeCast S1024x1024
      (select (cmpi .sle (iota .tc S1024x1024 32 [1] iota_S1024x1024_d1_w32) (iota .tc S1024x1024 32 [0] iota_S1024x1024_d0_w32)) C
        (broadcast S1024x1024 (Ideal.ofBits .f32 0x00000000#32)))
      shapeCasts_S1024x1024_S1024x1024 (ix2 p k) = _
  rw [shapeCast_self, Cert.Lib.Mask.lowerTri_select_apply .tc (by norm_num) (by norm_num), broadcast_apply,
    Ideal.ofBits_zero_f32]
  rfl

/-- The stored block of the covariance at `(p, q)`, at grid point `n`: no word wraps, since `256·n + p < 1024`. -/
theorem pay1_apply (n : Nat) (hn : n < 4) (rows : Vec Ideal S256x1024 .f32) (Lm : Vec Ideal S1024x1024 .f32)
    (p : Fin 256) (q : Fin 1024) :
    k0_pay1 (F := Ideal) (BitVec.ofNat 32 n) rows Lm (ix2 p q)
      = max ((∑ k : Fin 1024, rows (ix2 p k) * Lm (ix2 q k)) + (if 256 * n + p.val = q.val then Cert.Spec.eps else 0)) 0 := by
  unfold k0_pay1
  show max (FloatOps.matmul dot_S256x1024_S1024x1024_S256x1024_1_1_0_0_n_n none rows Lm (constant S256x1024 .f32 0x00000000#32) (ix2 p q)
      + select (cmpi .eq (addi (broadcast S256x1024 (Scalar.muli (BitVec.ofNat 32 n) (BitVec.ofNat 32 256)))
            (iota .tc S256x1024 32 [0] iota_S256x1024_d0_w32)) (iota .tc S256x1024 32 [1] iota_S256x1024_d1_w32))
          (broadcast S256x1024 (Ideal.ofBits .f32 0x322BCC77#32)) (broadcast S256x1024 (Ideal.ofBits .f32 0x00000000#32)) (ix2 p q))
      (Ideal.ofBits .f32 0x00000000#32) = _
  rw [Cert.Lib.Gram.gram_matmul_zero_apply _ rfl rfl rfl rfl rfl rfl, Cert.Lib.Mask.muli_ofNat n 256,
    Cert.Lib.Mask.diagFrom_select_apply .tc (n * 256) (by omega) (by norm_num), broadcast_apply, broadcast_apply,
    Ideal.ofBits_zero_f32, Nat.mul_comm n 256]

end Cert.KernelIdeal.CovPay

end
-- ==== Proof.KValue.lean ====
/-
  The fused kernel's two result arrays after its run, as functions of the argument arrays, over the extended reals.

  The mean. The grid's point t writes rows 2048·t … 2048·t + 2047 of the mean, and every row lies in exactly one such
  block (row r in block r / 2048). At (2048·t + p, q) the point's block holds the four quarter sums over k < 256 of an
  evidence block's entry (p, k) times a weight quarter's entry (k, q), added left to right, plus the bias at (0, q). The
  evidence blocks are lanes k and 256 + k of row 2048·t + p of each evidence array, the weight quarters rows k, 256 + k,
  512 + k and 768 + k of the weight matrix: so the four sums are the four quarters of the sum over k < 1024 of the row of
  the two evidence arrays laid side by side against column q of the weights, which is the specification's mean.

  The covariance. Point t writes rows 256·t … 256·t + 255 (row r lies in block r / 256). At (256·t + p, q) the block
  holds the larger of zero and the sum over k of L(256·t + p, k) · L(q, k), the jitter added where 256·t + p = q, with L
  the lower triangle of the parameter matrix: the specification's covariance at row 256·t + p.
-/
import proofs.«131072_g2000702177497736_pallasbulk_855_6_alg».proof.Proof.KDats
import proofs.«131072_g2000702177497736_pallasbulk_855_6_alg».proof.Proof.KMeanPay
import proofs.«131072_g2000702177497736_pallasbulk_855_6_alg».proof.Proof.KCovPay
import proofs.«131072_g2000702177497736_pallasbulk_855_6_alg».proof.Proof.Spec
import Idealize.ShloMosaic.Lib.Pipeline.Value
import Idealize.ShloMosaic.Lib.ValueIdx

set_option maxRecDepth 16384

noncomputable section

namespace Cert.KernelIdeal.Value_

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ)

/-! ## The arrays and the blocks, by their literal types -/

/-- The first evidence array. -/
abbrev ev0 (c : Dev nD) : Vec Ideal S8192x512 .f32 := V m c main_arg0
/-- The second evidence array. -/
abbrev ev1 (c : Dev nD) : Vec Ideal S8192x512 .f32 := V m c main_arg1
/-- The weight matrix. -/
abbrev wt (c : Dev nD) : Vec Ideal S1024x1024 .f32 := V m c main_arg2
/-- The bias row. -/
abbrev bias (c : Dev nD) : Vec Ideal S1x1024 .f32 := V m c main_arg3

/-- The blocks of the evidence arrays at point t: the low and the high 256 lanes of each. -/
abbrev ev0a (c : Dev nD) (t : Fin cfg0.N) : Vec Ideal S2048x256 .f32 := iblk m c 0 t
abbrev ev0b (c : Dev nD) (t : Fin cfg0.N) : Vec Ideal S2048x256 .f32 := iblk m c 1 t
abbrev ev1a (c : Dev nD) (t : Fin cfg0.N) : Vec Ideal S2048x256 .f32 := iblk m c 2 t
abbrev ev1b (c : Dev nD) (t : Fin cfg0.N) : Vec Ideal S2048x256 .f32 := iblk m c 3 t
/-- The four row quarters of the weight matrix, as the windows hold them at point t. -/
abbrev wq0 (c : Dev nD) (t : Fin cfg0.N) : Vec Ideal S256x1024 .f32 := iblk m c 4 t
abbrev wq1 (c : Dev nD) (t : Fin cfg0.N) : Vec Ideal S256x1024 .f32 := iblk m c 5 t
abbrev wq2 (c : Dev nD) (t : Fin cfg0.N) : Vec Ideal S256x1024 .f32 := iblk m c 6 t
abbrev wq3 (c : Dev nD) (t : Fin cfg0.N) : Vec Ideal S256x1024 .f32 := iblk m c 7 t
/-- The bias window's block at point t. -/
abbrev biasBlk (c : Dev nD) (t : Fin cfg0.N) : Vec Ideal S1x1024 .f32 := iblk m c 8 t

/-! ## The index maps, decided over the grid of four points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 1 :=
  (by decide +kernel : ∀ t : Fin grid0.N, win0_1.index t (0 : Fin 2) = t.val ∧ win0_1.index t (1 : Fin 2) = 1)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 1 :=
  (by decide +kernel : ∀ t : Fin grid0.N, win0_3.index t (0 : Fin 2) = t.val ∧ win0_3.index t (1 : Fin 2) = 1)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 1 ∧ win0_5.index t (1 : Fin 2) = 0 :=
  (by decide +kernel : ∀ t : Fin grid0.N, win0_5.index t (0 : Fin 2) = 1 ∧ win0_5.index t (1 : Fin 2) = 0)
theorem idx6 : ∀ t : Fin cfg0.N, win0_6.index t (0 : Fin 2) = 2 ∧ win0_6.index t (1 : Fin 2) = 0 :=
  (by decide +kernel : ∀ t : Fin grid0.N, win0_6.index t (0 : Fin 2) = 2 ∧ win0_6.index t (1 : Fin 2) = 0)
theorem idx7 : ∀ t : Fin cfg0.N, win0_7.index t (0 : Fin 2) = 3 ∧ win0_7.index t (1 : Fin 2) = 0 :=
  (by decide +kernel : ∀ t : Fin grid0.N, win0_7.index t (0 : Fin 2) = 3 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
/-- The grid's one coordinate at point t is t. -/
theorem coord0 : ∀ t : Fin cfg0.N, ((grid0.coords t) 0).val = t.val :=
  (by decide +kernel : ∀ t : Fin grid0.N, ((grid0.coords t) 0).val = t.val)

/-- A point of the grid is below four. -/
theorem pt_lt (t : Fin cfg0.N) : t.val < 4 := by have h := t.isLt; have h4 : cfg0.N = 4 := N_0; omega

/-! ## Each input block read off its array -/

/-- The low lanes of the first evidence array's rows 2048·t …. -/
theorem ev0a_apply (c : Dev nD) (t : Fin cfg0.N) (p : Fin 2048) (k : Fin 256) :
    ev0a m c t (ix2 p k)
      = ev0 m c (ix2 ⟨2048 * t.val + p.val, by have := pt_lt t; have := p.isLt; omega⟩ ⟨k.val, by have := k.isLt; omega⟩) := by
  unfold ev0a iblk
  rw [View.read_apply]
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 2048 + 1 * p.val = 2048 * t.val + p.val; rw [(idx0 t).1]; omega
  | ⟨1, _⟩ => show win0_0.index t (1 : Fin 2) * 256 + 1 * k.val = k.val; rw [(idx0 t).2]; omega

/-- The high lanes of the first evidence array's rows 2048·t …. -/
theorem ev0b_apply (c : Dev nD) (t : Fin cfg0.N) (p : Fin 2048) (k : Fin 256) :
    ev0b m c t (ix2 p k)
      = ev0 m c (ix2 ⟨2048 * t.val + p.val, by have := pt_lt t; have := p.isLt; omega⟩ ⟨256 + k.val, by have := k.isLt; omega⟩) := by
  unfold ev0b iblk
  rw [View.read_apply]
  show V m c main_arg0 (((cfg0.win 1).blk t).view.emb (ix2 p k)) = V m c main_arg0 _
  refine congrArg (V m c main_arg0) (funext fun a => Fin.ext ?_)
  match a with
  | ⟨0, _⟩ => show win0_1.index t (0 : Fin 2) * 2048 + 1 * p.val = 2048 * t.val + p.val; rw [(idx1 t).1]; omega
  | ⟨1, _⟩ => show win0_1.index t (1 : Fin 2) * 256 + 1 * k.val = 256 + k.val; rw [(idx1 t).2]; omega

/-- The low lanes of the second evidence array's rows 2048·t …. -/
theorem ev1a_apply (c : Dev nD) (t : Fin cfg0.N) (p : Fin 2048) (k : Fin 256) :
    ev1a m c t (ix2 p k)
      = ev1 m c (ix2 ⟨2048 * t.val + p.val, by have := pt_lt t; have := p.isLt; omega⟩ ⟨k.val, by have := k.isLt; omega⟩) := by
  unfold ev1a iblk
  rw [View.read_apply]
  show V m c main_arg1 (((cfg0.win 2).blk t).view.emb (ix2 p k)) = V m c main_arg1 _
  refine congrArg (V m c main_arg1) (funext fun a => Fin.ext ?_)
  match a with
  | ⟨0, _⟩ => show win0_2.index t (0 : Fin 2) * 2048 + 1 * p.val = 2048 * t.val + p.val; rw [(idx2 t).1]; omega
  | ⟨1, _⟩ => show win0_2.index t (1 : Fin 2) * 256 + 1 * k.val = k.val; rw [(idx2 t).2]; omega

/-- The high lanes of the second evidence array's rows 2048·t …. -/
theorem ev1b_apply (c : Dev nD) (t : Fin cfg0.N) (p : Fin 2048) (k : Fin 256) :
    ev1b m c t (ix2 p k)
      = ev1 m c (ix2 ⟨2048 * t.val + p.val, by have := pt_lt t; have := p.isLt; omega⟩ ⟨256 + k.val, by have := k.isLt; omega⟩) := by
  unfold ev1b iblk
  rw [View.read_apply]
  show V m c main_arg1 (((cfg0.win 3).blk t).view.emb (ix2 p k)) = V m c main_arg1 _
  refine congrArg (V m c main_arg1) (funext fun a => Fin.ext ?_)
  match a with
  | ⟨0, _⟩ => show win0_3.index t (0 : Fin 2) * 2048 + 1 * p.val = 2048 * t.val + p.val; rw [(idx3 t).1]; omega
  | ⟨1, _⟩ => show win0_3.index t (1 : Fin 2) * 256 + 1 * k.val = 256 + k.val; rw [(idx3 t).2]; omega

/-- The weight matrix's rows 0 … 255. -/
theorem wq0_apply (c : Dev nD) (t : Fin cfg0.N) (k : Fin 256) (q : Fin 1024) :
    wq0 m c t (ix2 k q) = wt m c (ix2 ⟨k.val, by have := k.isLt; omega⟩ q) := by
  unfold wq0 iblk
  rw [View.read_apply]
  show V m c main_arg2 (((cfg0.win 4).blk t).view.emb (ix2 k q)) = V m c main_arg2 _
  refine congrArg (V m c main_arg2) (funext fun a => Fin.ext ?_)
  match a with
  | ⟨0, _⟩ => show win0_4.index t (0 : Fin 2) * 256 + 1 * k.val = k.val; rw [(idx4 t).1]; omega
  | ⟨1, _⟩ => show win0_4.index t (1 : Fin 2) * 1024 + 1 * q.val = q.val; rw [(idx4 t).2]; omega

/-- The weight matrix's rows 256 … 511. -/
theorem wq1_apply (c : Dev nD) (t : Fin cfg0.N) (k : Fin 256) (q : Fin 1024) :
    wq1 m c t (ix2 k q) = wt m c (ix2 ⟨256 + k.val, by have := k.isLt; omega⟩ q) := by
  unfold wq1 iblk
  rw [View.read_apply]
  show V m c main_arg2 (((cfg0.win 5).blk t).view.emb (ix2 k q)) = V m c main_arg2 _
  refine congrArg (V m c main_arg2) (funext fun a => Fin.ext ?_)
  match a with
  | ⟨0, _⟩ => show win0_5.index t (0 : Fin 2) * 256 + 1 * k.val = 256 + k.val; rw [(idx5 t).1]; omega
  | ⟨1, _⟩ => show win0_5.index t (1 : Fin 2) * 1024 + 1 * q.val = q.val; rw [(idx5 t).2]; omega

/-- The weight matrix's rows 512 … 767. -/
theorem wq2_apply (c : Dev nD) (t : Fin cfg0.N) (k : Fin 256) (q : Fin 1024) :
    wq2 m c t (ix2 k q) = wt m c (ix2 ⟨512 + k.val, by have := k.isLt; omega⟩ q) := by
  unfold wq2 iblk
  rw [View.read_apply]
  show V m c main_arg2 (((cfg0.win 6).blk t).view.emb (ix2 k q)) = V m c main_arg2 _
  refine congrArg (V m c main_arg2) (funext fun a => Fin.ext ?_)
  match a with
  | ⟨0, _⟩ => show win0_6.index t (0 : Fin 2) * 256 + 1 * k.val = 512 + k.val; rw [(idx6 t).1]; omega
  | ⟨1, _⟩ => show win0_6.index t (1 : Fin 2) * 1024 + 1 * q.val = q.val; rw [(idx6 t).2]; omega

/-- The weight matrix's rows 768 … 1023. -/
theorem wq3_apply (c : Dev nD) (t : Fin cfg0.N) (k : Fin 256) (q : Fin 1024) :
    wq3 m c t (ix2 k q) = wt m c (ix2 ⟨768 + k.val, by have := k.isLt; omega⟩ q) := by
  unfold wq3 iblk
  rw [View.read_apply]
  show V m c main_arg2 (((cfg0.win 7).blk t).view.emb (ix2 k q)) = V m c main_arg2 _
  refine congrArg (V m c main_arg2) (funext fun a => Fin.ext ?_)
  match a with
  | ⟨0, _⟩ => show win0_7.index t (0 : Fin 2) * 256 + 1 * k.val = 768 + k.val; rw [(idx7 t).1]; omega
  | ⟨1, _⟩ => show win0_7.index t (1 : Fin 2) * 1024 + 1 * q.val = q.val; rw [(idx7 t).2]; omega

/-- The bias window holds the bias row whole. -/
theorem biasBlk_apply (c : Dev nD) (t : Fin cfg0.N) (z : Fin 1) (q : Fin 1024) :
    biasBlk m c t (ix2 z q) = bias m c (ix2 z q) := by
  unfold biasBlk iblk
  rw [View.read_apply]
  show V m c main_arg3 (((cfg0.win 8).blk t).view.emb (ix2 z q)) = V m c main_arg3 _
  refine congrArg (V m c main_arg3) (funext fun a => Fin.ext ?_)
  match a with
  | ⟨0, _⟩ => show win0_8.index t (0 : Fin 2) * 1 + 1 * z.val = z.val; rw [(idx8 t).1]; omega
  | ⟨1, _⟩ => show win0_8.index t (1 : Fin 2) * 1024 + 1 * q.val = q.val; rw [(idx8 t).2]; omega

/-! ## The row of the two evidence arrays laid side by side, quarter by quarter -/

theorem cat_q0 (e0 e1 : Cert.Spec.SEv.Idx → EReal) (r : Fin 8192) (k : Fin 256) :
    Cert.Spec.cat e0 e1 r ⟨k.val, by have := k.isLt; omega⟩ = e0 (ix2 r ⟨k.val, by have := k.isLt; omega⟩) := by
  unfold Cert.Spec.cat
  exact dif_pos (show k.val < 512 by have := k.isLt; omega)

theorem cat_q1 (e0 e1 : Cert.Spec.SEv.Idx → EReal) (r : Fin 8192) (k : Fin 256) :
    Cert.Spec.cat e0 e1 r ⟨256 + k.val, by have := k.isLt; omega⟩ = e0 (ix2 r ⟨256 + k.val, by have := k.isLt; omega⟩) := by
  unfold Cert.Spec.cat
  exact dif_pos (show 256 + k.val < 512 by have := k.isLt; omega)

theorem cat_q2 (e0 e1 : Cert.Spec.SEv.Idx → EReal) (r : Fin 8192) (k : Fin 256) :
    Cert.Spec.cat e0 e1 r ⟨512 + k.val, by have := k.isLt; omega⟩ = e1 (ix2 r ⟨k.val, by have := k.isLt; omega⟩) := by
  unfold Cert.Spec.cat
  refine (dif_neg (show ¬ 512 + k.val < 512 by omega)).trans ?_
  exact congrArg (fun z : Fin 512 => e1 (ix2 r z)) (Fin.ext (by show 512 + k.val - 512 = k.val; omega))

theorem cat_q3 (e0 e1 : Cert.Spec.SEv.Idx → EReal) (r : Fin 8192) (k : Fin 256) :
    Cert.Spec.cat e0 e1 r ⟨768 + k.val, by have := k.isLt; omega⟩ = e1 (ix2 r ⟨256 + k.val, by have := k.isLt; omega⟩) := by
  unfold Cert.Spec.cat
  refine (dif_neg (show ¬ 768 + k.val < 512 by omega)).trans ?_
  exact congrArg (fun z : Fin 512 => e1 (ix2 r z)) (Fin.ext (by show 768 + k.val - 512 = 256 + k.val; omega))

/-! ## The mean -/

/-- Where an element of point t's block of the mean sits in the array. -/
theorem mean_emb (t : Fin cfg0.N) (p : Fin 2048) (q : Fin 1024) :
    ((cfg0.win 10).blk t).view.emb (ix2 p q)
      = (ix2 ⟨2048 * t.val + p.val, by have := pt_lt t; have := p.isLt; omega⟩ q : S8192x1024.Idx) := by
  refine funext fun a => Fin.ext ?_
  match a with
  | ⟨0, _⟩ => show win0_10.index t (0 : Fin 2) * 2048 + 1 * p.val = 2048 * t.val + p.val; rw [(idx10 t).1]; omega
  | ⟨1, _⟩ => show win0_10.index t (1 : Fin 2) * 1024 + 1 * q.val = q.val; rw [(idx10 t).2]; omega

/-- The block the body leaves at point t, at (p, q), is the specification's mean at (2048·t + p, q). -/
theorem meanBlk_apply (c : Dev nD) (t : Fin cfg0.N) (p : Fin 2048) (q : Fin 1024) :
    meanBlk (ev0a m c t) (ev0b m c t) (ev1a m c t) (ev1b m c t) (wq0 m c t) (wq1 m c t) (wq2 m c t) (wq3 m c t) (biasBlk m c t) (ix2 p q)
      = Cert.Spec.meanAt (ev0 m c) (ev1 m c) (wt m c) (bias m c) ⟨2048 * t.val + p.val, by have := pt_lt t; have := p.isLt; omega⟩ q := by
  refine (Cert.KernelIdeal.MeanPay.pay3_apply (ev0a m c t) (ev0b m c t) (ev1a m c t) (ev1b m c t) (wq0 m c t) (wq1 m c t) (wq2 m c t) (wq3 m c t) (biasBlk m c t) p q).trans ?_
  unfold Cert.Spec.meanAt
  rw [Cert.Spec.sum_quarters]
  refine congrArg₂ (· + ·) (congrArg₂ (· + ·) (congrArg₂ (· + ·) (congrArg₂ (· + ·) ?_ ?_) ?_) ?_) (biasBlk_apply m c t 0 q)
  · exact Finset.sum_congr rfl fun k _ => by rw [ev0a_apply, wq0_apply, cat_q0]
  · exact Finset.sum_congr rfl fun k _ => by rw [ev0b_apply, wq1_apply, cat_q1]
  · exact Finset.sum_congr rfl fun k _ => by rw [ev1a_apply, wq2_apply, cat_q2]
  · exact Finset.sum_congr rfl fun k _ => by rw [ev1b_apply, wq3_apply, cat_q3]

/-- The mean as a function of the argument arrays as the region finds them. -/
abbrev meanOf (c : Dev nD) : S8192x1024.Idx → Elt Ideal .f32 := Cert.Spec.meanG (ev0 m c) (ev1 m c) (wt m c) (bias m c)

/-- What point t writes back is its block of the specification's mean. -/
theorem flushed_mean (c : Dev nD) (t : Fin cfg0.N) :
    (dats (F := Ideal) m 0 c).flushed 10 t = ((cfg0.win 10).blk t).view.read (Elt Ideal) (meanOf m c) := by
  show (cfg0.win 10).cut (grid0.coords t) ((dats m 0 c).after 10 t) = _
  rw [after10]
  funext j
  obtain ⟨p, q, rfl⟩ : ∃ (p : Fin 2048) (q : Fin 1024), j = ix2 p q := ⟨j 0, j 1, eq_ix2 j⟩
  rw [View.read_apply]
  show meanBlk (ev0a m c t) (ev0b m c t) (ev1a m c t) (ev1b m c t) (wq0 m c t) (wq1 m c t) (wq2 m c t) (wq3 m c t) (biasBlk m c t) (ix2 p q)
    = meanOf m c (((cfg0.win 10).blk t).view.emb (ix2 p q))
  rw [mean_emb, meanBlk_apply]
  rfl

/-- An index of the mean is in point t's block iff each coordinate is in the block's range on its axis. -/
theorem mem_blk_mean (t : Fin cfg0.N) (i : S8192x1024.Idx) :
    i ∈ ((cfg0.win 10).blk t).view.set
      ↔ ∀ a : Fin 2, win0_10.index t a * S2048x1024.size a ≤ (i a).val ∧ (i a).val < win0_10.index t a * S2048x1024.size a + S2048x1024.size a := by
  show i ∈ ((View.whole main_v0_0).slice (win0_10.rect t)).set ↔ _
  rw [View.set_slice_whole, Rect.mem_set_unit]
  exact Iff.rfl

/-- Row r of the mean is in the block of point r / 2048. -/
theorem cover_mean (i : S8192x1024.Idx) :
    ∃ t : Fin cfg0.N, (cfg0.win 10).flush t = true ∧ i ∈ ((cfg0.win 10).blk t).view.set := by
  have h0 : (i 0).val < 8192 := (i 0).isLt
  have h1 : (i 1).val < 1024 := (i 1).isLt
  have hN : cfg0.N = 4 := N_0
  refine ⟨⟨(i 0).val / 2048, by rw [hN]; omega⟩, flush0_10 _, ?_⟩
  rw [mem_blk_mean]
  intro a
  match a with
  | ⟨0, _⟩ =>
    show win0_10.index _ (0 : Fin 2) * 2048 ≤ (i 0).val ∧ (i 0).val < win0_10.index _ (0 : Fin 2) * 2048 + 2048
    rw [(idx10 _).1]
    show (i 0).val / 2048 * 2048 ≤ (i 0).val ∧ (i 0).val < (i 0).val / 2048 * 2048 + 2048
    omega
  | ⟨1, _⟩ =>
    show win0_10.index _ (1 : Fin 2) * 1024 ≤ (i 1).val ∧ (i 1).val < win0_10.index _ (1 : Fin 2) * 1024 + 1024
    rw [(idx10 _).2]
    omega

/-- The mean's array after the run is the specification's mean of the argument arrays. -/
theorem arrAt_mean (c : Dev nD) :
    (dats (F := Ideal) m 0 c).arrAt 10 cfg0.N
      = Cert.Spec.meanG (m ((c : Thread nD τ).loc main_arg0)) (m ((c : Thread nD τ).loc main_arg1))
          (m ((c : Thread nD τ).loc main_arg2)) (m ((c : Thread nD τ).loc main_arg3)) :=
  (dats m 0 c).arrAt_eq_of_cover 10 (meanOf m c) (fun t _ => flushed_mean m c t) cover_mean

/-! ## The covariance -/

/-- Where an element of point t's block of the covariance sits in the array. -/
theorem cov_emb (t : Fin cfg0.N) (p : Fin 256) (q : Fin 1024) :
    ((cfg0.win 11).blk t).view.emb (ix2 p q)
      = (ix2 ⟨256 * t.val + p.val, by have := pt_lt t; have := p.isLt; omega⟩ q : S1024x1024.Idx) := by
  refine funext fun a => Fin.ext ?_
  match a with
  | ⟨0, _⟩ => show win0_11.index t (0 : Fin 2) * 256 + 1 * p.val = 256 * t.val + p.val; rw [(idx11 t).1]; omega
  | ⟨1, _⟩ => show win0_11.index t (1 : Fin 2) * 1024 + 1 * q.val = q.val; rw [(idx11 t).2]; omega

/-- The block the body leaves at point t over the lower triangle of C, at (p, q), is the specification's covariance of C
    at (256·t + p, q). -/
theorem covBlk_apply (C : Vec Ideal S1024x1024 .f32) (t : Fin cfg0.N) (p : Fin 256) (q : Fin 1024) :
    covBlk (F := Ideal) (grid0.coords t) (k0_pay2 (F := Ideal) C) (ix2 p q)
      = Cert.Spec.covAt C ⟨256 * t.val + p.val, by have := pt_lt t; have := p.isLt; omega⟩ q := by
  refine (Cert.KernelIdeal.CovPay.pay1_apply ((grid0.coords t) 0).val (by rw [coord0 t]; exact pt_lt t)
    (rowsOf (grid0.coords t) (k0_pay2 (F := Ideal) C)) (k0_pay2 (F := Ideal) C) p q).trans ?_
  rw [coord0 t]
  unfold Cert.Spec.covAt
  refine congrArg (fun z => max z (0 : EReal)) (congrArg₂ (· + ·) ?_ rfl)
  exact Finset.sum_congr rfl fun k _ => by
    rw [rowsOf_apply, Cert.KernelIdeal.CovPay.pay2_apply, Cert.KernelIdeal.CovPay.pay2_apply]

/-- The covariance as a function of the parameter matrix as the region finds it. -/
abbrev covOf (c : Dev nD) : S1024x1024.Idx → Elt Ideal .f32 := Cert.Spec.covG (Cmat m c)

/-- What point t writes back is its block of the specification's covariance. -/
theorem flushed_cov (c : Dev nD) (t : Fin cfg0.N) :
    (dats (F := Ideal) m 0 c).flushed 11 t = ((cfg0.win 11).blk t).view.read (Elt Ideal) (covOf m c) := by
  show (cfg0.win 11).cut (grid0.coords t) ((dats m 0 c).after 11 t) = _
  rw [after11]
  funext j
  obtain ⟨p, q, rfl⟩ : ∃ (p : Fin 256) (q : Fin 1024), j = ix2 p q := ⟨j 0, j 1, eq_ix2 j⟩
  rw [View.read_apply]
  show covBlk (grid0.coords t) (k0_pay2 (F := Ideal) (Cmat m c)) (ix2 p q) = covOf m c (((cfg0.win 11).blk t).view.emb (ix2 p q))
  rw [cov_emb, covBlk_apply]
  rfl

/-- An index of the covariance is in point t's block iff each coordinate is in the block's range on its axis. -/
theorem mem_blk_cov (t : Fin cfg0.N) (i : S1024x1024.Idx) :
    i ∈ ((cfg0.win 11).blk t).view.set
      ↔ ∀ a : Fin 2, win0_11.index t a * S256x1024.size a ≤ (i a).val ∧ (i a).val < win0_11.index t a * S256x1024.size a + S256x1024.size a := by
  show i ∈ ((View.whole main_v0_1).slice (win0_11.rect t)).set ↔ _
  rw [View.set_slice_whole, Rect.mem_set_unit]
  exact Iff.rfl

/-- Row r of the covariance is in the block of point r / 256. -/
theorem cover_cov (i : S1024x1024.Idx) :
    ∃ t : Fin cfg0.N, (cfg0.win 11).flush t = true ∧ i ∈ ((cfg0.win 11).blk t).view.set := by
  have h0 : (i 0).val < 1024 := (i 0).isLt
  have h1 : (i 1).val < 1024 := (i 1).isLt
  have hN : cfg0.N = 4 := N_0
  refine ⟨⟨(i 0).val / 256, by rw [hN]; omega⟩, flush0_11 _, ?_⟩
  rw [mem_blk_cov]
  intro a
  match a with
  | ⟨0, _⟩ =>
    show win0_11.index _ (0 : Fin 2) * 256 ≤ (i 0).val ∧ (i 0).val < win0_11.index _ (0 : Fin 2) * 256 + 256
    rw [(idx11 _).1]
    show (i 0).val / 256 * 256 ≤ (i 0).val ∧ (i 0).val < (i 0).val / 256 * 256 + 256
    omega
  | ⟨1, _⟩ =>
    show win0_11.index _ (1 : Fin 2) * 1024 ≤ (i 1).val ∧ (i 1).val < win0_11.index _ (1 : Fin 2) * 1024 + 1024
    rw [(idx11 _).2]
    omega

/-- The covariance's array after the run is the specification's covariance of the parameter matrix. -/
theorem arrAt_cov (c : Dev nD) :
    (dats (F := Ideal) m 0 c).arrAt 11 cfg0.N = Cert.Spec.covG (m ((c : Thread nD τ).loc main_arg4)) :=
  (dats m 0 c).arrAt_eq_of_cover 11 (covOf m c) (fun t _ => flushed_cov m c t) cover_cov

end Cert.KernelIdeal.Value_

end
-- ==== Proof.RMeanPay.lean ====
/-
  The mean's block as the second program computes it, read at an element, over the extended reals, and the two evidence
  arrays laid side by side.

  One block of 512 rows is ONE matrix product `[512, 1024] × [1024, 1024]` into the zero word (its left operand first cast
  to its own shape, which changes nothing) plus the bias row `[1, 1024]` repeated down the rows: at `(p, q)` the sum over
  `k < 1024` of `x(p, k) · w(k, q)`, plus `b(0, q)`.

  Before it, the two `[8192, 512]` arrays are joined along the lanes: lane `k` of row `r` is the first array's at `k`
  when `k < 512` and the second array's at `k - 512` otherwise.
-/
import proofs.«131072_g2000702177497736_pallasbulk_855_6_alg».proof.Proof.Gen.ReferenceIdeal.Skeleton
import proofs.«131072_g2000702177497736_pallasbulk_855_6_alg».proof.Proof.Gen.ReferenceIdeal.Launch
import proofs.«131072_g2000702177497736_pallasbulk_855_6_alg».proof.Proof.LibRowwise
import proofs.«131072_g2000702177497736_pallasbulk_855_6_alg».proof.Proof.Spec

noncomputable section

namespace Cert.ReferenceIdeal.MeanPay

open Idealize.ShloMosaic Idealize.ShloMosaic.ValueIdx Cert.ReferenceIdeal Cert.ReferenceIdeal.Gen

variable [Cert.ReferenceIdeal.Facts]

/-- The product's dimension numbers contract the left operand's lanes with the right operand's rows and have no batch
    axes: the plain record. -/
theorem dot_eq_plain : dot_S512x1024_S1024x1024_S512x1024_1_0_0_1_n_n = DotDims.plain 512 1024 1024 :=
  Cert.Lib.Rowwise.eq_plain _ rfl rfl rfl rfl rfl rfl

/-- The product into the zero word, at `(p, q)`. -/
theorem product_apply (x : Vec Ideal S512x1024 .f32) (w : Vec Ideal S1024x1024 .f32) (p : Fin 512) (q : Fin 1024) :
    matmul (φ₁ := .f32) (φ₂ := .f32) dot_S512x1024_S1024x1024_S512x1024_1_0_0_1_n_n none x w
        (constant (F := Ideal) S512x1024 .f32 0x00000000#32) (ix2 p q)
      = ∑ k : Fin 1024, x (ix2 p k) * w (ix2 k q) := by
  rw [dot_eq_plain]
  exact Cert.Lib.Rowwise.plain_matmul_zero_apply none x w p q

/-- The bias row repeated down the rows, at `(p, q)`: the row's entry `q`. -/
theorem biasRows_apply (b : Vec Ideal S1x1024 .f32) (h : S1x1024.Broadcasts S512x1024) (p : Fin 512) (q : Fin 1024) :
    broadcastTo S512x1024 b h (ix2 p q) = b (ix2 0 q) := by
  refine broadcastTo_apply b h (ix2 p q) (ix2 0 q) fun a => ?_
  match a with
  | ⟨0, _⟩ => exact (if_pos rfl).symm
  | ⟨1, _⟩ => exact (if_neg (show ¬ ((1024 : Nat) = 1) by decide)).symm

/-- The block at `(p, q)`: the sum over the 1024 contracted entries, plus the bias at `(0, q)`. -/
theorem pay1_apply (x : Vec Ideal S512x1024 .f32) (w : Vec Ideal S1024x1024 .f32) (b : Vec Ideal S1x1024 .f32)
    (p : Fin 512) (q : Fin 1024) :
    Cert.ReferenceIdeal.Gen.k0_pay1 (F := Ideal) x w b (ix2 p q) = (∑ k : Fin 1024, x (ix2 p k) * w (ix2 k q)) + b (ix2 0 q) := by
  unfold k0_pay1
  show matmul (φ₁ := .f32) (φ₂ := .f32) dot_S512x1024_S1024x1024_S512x1024_1_0_0_1_n_n none
          (shapeCast S512x1024 x Facts₀.shapeCasts_S512x1024_S512x1024) w (constant (F := Ideal) S512x1024 .f32 0x00000000#32) (ix2 p q)
        + broadcastTo S512x1024 b Facts₀.broadcasts_S1x1024_S512x1024 (ix2 p q) = _
  rw [shapeCast_self, product_apply, biasRows_apply]

/-- The two evidence arrays joined along the lanes, at `(r, k)`. -/
theorem concat_apply (a b : Vec Ideal S8192x512 .f32) (r : Fin 8192) (k : Fin 1024) :
    concatenate S8192x1024 1 [⟨S8192x512, a⟩, ⟨S8192x512, b⟩] Cert.ReferenceIdeal.Facts₀.concatenates_S8192x512_S8192x512_S8192x1024_d1 (ix2 r k)
      = Cert.Spec.cat a b r k := by
  unfold Cert.Spec.cat
  by_cases h : k.val < 512
  · -- a lane below 512 lies in the first array, at the same coordinates
    rw [dif_pos h]
    refine concatenate_pair_apply_left (1 : Fin 2) a b _ (ix2 r k) rfl (ix2 r ⟨k.val, h⟩) fun c => ?_
    match c with
    | ⟨0, _⟩ => rfl
    | ⟨1, _⟩ => rfl
  · -- a lane from 512 on lies in the second array, 512 lanes earlier
    rw [dif_neg h]
    have hk := k.isLt
    refine concatenate_pair_apply_right (1 : Fin 2) a b _ (ix2 r k) rfl rfl (ix2 r ⟨k.val - 512, by omega⟩) (fun c hc => ?_) ?_
    · match c with
      | ⟨0, _⟩ => rfl
      | ⟨1, _⟩ => exact absurd rfl hc
    · show k.val - 512 + 512 = k.val
      omega

end Cert.ReferenceIdeal.MeanPay

end
-- ==== Proof.RCovPay.lean ====
/-
  The covariance the reference stores, read at an element, at the extended reals.

  The reference zeroes the upper triangle of the whole parameter matrix (the select on "lane ≤ row"), multiplies the
  result `L` by its own transpose — at `(p, q)` the sum over `k` of `L(p, k) · L(q, k)` —, adds the jitter on the
  diagonal (the select on "row = lane") and keeps the larger of that and zero: `Cert.Spec.covAt`.
-/
import proofs.«131072_g2000702177497736_pallasbulk_855_6_alg».proof.Proof.Gen.ReferenceIdeal.Skeleton
import proofs.«131072_g2000702177497736_pallasbulk_855_6_alg».proof.Proof.LibGram
import proofs.«131072_g2000702177497736_pallasbulk_855_6_alg».proof.Proof.LibMask
import proofs.«131072_g2000702177497736_pallasbulk_855_6_alg».proof.Proof.Spec

noncomputable section

namespace Cert.ReferenceIdeal.CovPay

open Idealize.ShloMosaic Idealize.ShloMosaic.ValueIdx Cert.ReferenceIdeal Cert.ReferenceIdeal.Gen

variable [Cert.ReferenceIdeal.Facts]

/-- The lower triangle as the reference selects it: the matrix where the lane is at most the row, the zero word above. -/
def lower (C : Vec Ideal S1024x1024 .f32) : Vec Ideal S1024x1024 .f32 :=
  select (cmpi .sle (iota .tc S1024x1024 32 [1] iota_S1024x1024_d1_w32) (iota .tc S1024x1024 32 [0] iota_S1024x1024_d0_w32)) C
    (broadcast S1024x1024 (Ideal.ofBits .f32 0x00000000#32))

/-- It is the specification's lower triangle at every element. -/
theorem lower_apply (C : Vec Ideal S1024x1024 .f32) (p k : Fin 1024) : lower C (ix2 p k) = Cert.Spec.tril C p k := by
  unfold lower
  rw [Cert.Lib.Mask.lowerTri_select_apply .tc (by norm_num) (by norm_num), broadcast_apply, Ideal.ofBits_zero_f32]
  rfl

/-- The stored covariance at `(p, q)`. -/
theorem pay1_apply (C : Vec Ideal S1024x1024 .f32) (p q : Fin 1024) :
    Cert.ReferenceIdeal.Gen.k1_pay1 (F := Ideal) C (ix2 p q) = Cert.Spec.covAt C p q := by
  unfold Cert.ReferenceIdeal.Gen.k1_pay1
  show max (FloatOps.matmul dot_S1024x1024_S1024x1024_S1024x1024_1_1_0_0_n_n none (lower C) (lower C)
        (constant S1024x1024 .f32 0x00000000#32) (ix2 p q)
      + select (cmpi .eq (iota .tc S1024x1024 32 [0] iota_S1024x1024_d0_w32) (iota .tc S1024x1024 32 [1] iota_S1024x1024_d1_w32))
          (broadcast S1024x1024 (Ideal.ofBits .f32 0x322BCC77#32)) (broadcast S1024x1024 (Ideal.ofBits .f32 0x00000000#32)) (ix2 p q))
      (Ideal.ofBits .f32 0x00000000#32) = _
  rw [Cert.Lib.Gram.gram_matmul_zero_apply _ rfl rfl rfl rfl rfl rfl,
    Cert.Lib.Mask.diag_select_apply .tc (by norm_num) (by norm_num), broadcast_apply, broadcast_apply, Ideal.ofBits_zero_f32]
  simp only [lower_apply]
  rfl

end Cert.ReferenceIdeal.CovPay

end
-- ==== Proof.RefValue.lean ====
/-
  The second program's run, read: its two result arrays as functions of the launch arrays, over the extended reals.

  The program joins the two evidence arrays [8192, 512] along the lanes, then computes the mean array [8192, 1024] in
  sixteen blocks of 512 rows — block `t` is rows `512 t … 512 t + 511` of the joined array against the whole weight,
  plus the bias row —, then the covariance array [1024, 1024] in one block from the whole parameter matrix.

  * The covariance: the one block is the whole array, so what is written back is the covariance of the parameter matrix
    as the region finds it, which is the launch matrix (nothing before writes it); the one block covers the array.
  * The mean: at a point `t`, entry (p, q) of the block written back is the sum over k of the joined array's entry
    (512 t + p, k) times the weight's (k, q), plus the bias at (0, q): the mean at (512 t + p, q). Row `r` lies in block
    `r / 512`, so the sixteen blocks cover the array.
  * The arguments are as launched.
-/
import proofs.«131072_g2000702177497736_pallasbulk_855_6_alg».proof.Proof.RefRun
import proofs.«131072_g2000702177497736_pallasbulk_855_6_alg».proof.Proof.Spec
import proofs.«131072_g2000702177497736_pallasbulk_855_6_alg».proof.Proof.RMeanPay
import proofs.«131072_g2000702177497736_pallasbulk_855_6_alg».proof.Proof.RCovPay
import Idealize.ShloMosaic.Lib.Pipeline.Value
import Idealize.ShloMosaic.Lib.ValueIdx
import Idealize.ShloMosaic.Lib.Tactic

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of a whole-buffer access, as the constant function. -/
theorem hz : (![0, 0] : Fin 2 → Nat) = fun _ => 0 := funext fun a => by fin_cases a <;> rfl

/-! ## The covariance: the second region, one point, whole arrays -/

/-- What the covariance body leaves in its result buffer, from its whole input buffer: the covariance of that input. -/
theorem covOut_eq (X : Vec Ideal S1024x1024 .f32) : out1_1 (F := Ideal) X = Cert.Spec.covG X := by
  unfold out1_1
  rw [View.canon_unit_zero hz]
  simp only [View.ld_unit_zero (S := S1024x1024) hz]
  funext j
  obtain ⟨p, q, rfl⟩ : ∃ (p : Fin 1024) (q : Fin 1024), j = ix2 p q := ⟨j 0, j 1, eq_ix2 j⟩
  exact (Cert.ReferenceIdeal.CovPay.pay1_apply X p q).trans (Cert.Spec.covG_ix2 X p q).symm

/-- The parameter matrix as the second region finds it. -/
abbrev covIn (c : Dev nD) : Vec Ideal S1024x1024 .f32 := V2 m ρ c main_arg4

/-- It is the launch contents: neither the host operation nor the first region writes it. -/
theorem covIn_eq (c : Dev nD) : covIn m ρ c = m ((c.tc : Thread nD τ).loc main_arg4) :=
  ((W3_arr m ρ c 0).trans (((dat1 (V2 m ρ) c).arrAt_in 0 rfl _).trans (A_eq1 (V2 m ρ) c 0))).symm.trans (W3_main_arg4 m ρ c)

/-- The input window's one block is the whole parameter matrix. -/
theorem covBlk_eq (c : Dev nD) (t : Fin cfg1.N) :
    (iblk1 (V2 m ρ) c 0 t : Vec Ideal S1024x1024 .f32) = covIn m ρ c := by
  funext y
  unfold iblk1
  rw [View.read_apply]
  show V2 m ρ c main_arg4 _ = V2 m ρ c main_arg4 y
  congr 1
  funext a
  apply Fin.ext
  match a with
  | ⟨0, _⟩ => show win1_0.index t 0 * 1024 + 1 * (y 0).val = (y 0).val; rw [show win1_0.index t 0 = 0 from rfl]; omega
  | ⟨1, _⟩ => show win1_0.index t 1 * 1024 + 1 * (y 1).val = (y 1).val; rw [show win1_0.index t 1 = 0 from rfl]; omega

/-- What the one point writes back to the covariance array is the whole covariance of the launch parameter matrix,
    read through the window's block (which is the whole array). -/
theorem cov_flushed (c : Dev nD) (t : Fin cfg1.N) :
    (dat1 (V2 m ρ) c).flushed 1 t
      = ((cfg1.win 1).blk t).view.read (Elt Ideal) (Cert.Spec.covG (m ((c.tc : Thread nD τ).loc main_arg4))) := by
  show (cfg1.win 1).cut (grid1.coords t) ((dat1 (V2 m ρ) c).after 1 t) = _
  rw [after1_1, covBlk_eq, covOut_eq, covIn_eq]
  funext j
  show Cert.Spec.covG (m ((c.tc : Thread nD τ).loc main_arg4)) ((cfg1.win 1).xinj (grid1.coords t) j)
    = Cert.Spec.covG (m ((c.tc : Thread nD τ).loc main_arg4)) (((cfg1.win 1).blk t).view.emb j)
  congr 1
  funext a
  apply Fin.ext
  match a with
  | ⟨0, _⟩ => show (j 0).val = win1_1.index t 0 * 1024 + 1 * (j 0).val; rw [show win1_1.index t 0 = 0 from rfl]; omega
  | ⟨1, _⟩ => show (j 1).val = win1_1.index t 1 * 1024 + 1 * (j 1).val; rw [show win1_1.index t 1 = 0 from rfl]; omega

/-- The covariance array after the run: the one block covers it. -/
theorem cov_final (c : Dev nD) :
    W3 m ρ c (Proc.devRef .tc main_v2) = Cert.Spec.covG (m ((c.tc : Thread nD τ).loc main_arg4)) :=
  (W3_arr m ρ c 1).trans <|
    (dat1 (V2 m ρ) c).arrAt_eq_of_cover 1 (Cert.Spec.covG (m ((c.tc : Thread nD τ).loc main_arg4)))
      (fun t _ => cov_flushed m ρ c t) fun i =>
      ⟨t1_0, flush1_1 t1_0, by
        show i ∈ ((View.whole main_v2).slice (win1_1.rect t1_0)).set
        rw [View.set_slice_whole, Rect.mem_set_unit]
        intro a
        have h0 : (i 0 : Nat) < 1024 := (i 0).isLt
        have h1 : (i 1 : Nat) < 1024 := (i 1).isLt
        match a with
        | ⟨0, _⟩ =>
          show win1_1.index t1_0 0 * 1024 ≤ (i 0 : Nat) ∧ (i 0 : Nat) < win1_1.index t1_0 0 * 1024 + 1024
          rw [show win1_1.index t1_0 0 = 0 from rfl]; omega
        | ⟨1, _⟩ =>
          show win1_1.index t1_0 1 * 1024 ≤ (i 1 : Nat) ∧ (i 1 : Nat) < win1_1.index t1_0 1 * 1024 + 1024
          rw [show win1_1.index t1_0 1 = 0 from rfl]; omega⟩

/-! ## The mean: the first region, sixteen blocks of 512 rows -/

/-- The two evidence arrays side by side, the weight and the bias, as the first region finds them. -/
abbrev catIn (c : Dev nD) : Vec Ideal S8192x1024 .f32 := V1 m ρ c main_v0
abbrev wIn (c : Dev nD) : Vec Ideal S1024x1024 .f32 := V1 m ρ c main_arg2
abbrev bIn (c : Dev nD) : Vec Ideal S1x1024 .f32 := V1 m ρ c main_arg3

/-- The host operation before the region joins the two launch evidence arrays along the lanes. -/
theorem catIn_eq (c : Dev nD) :
    catIn m ρ c = concatenate S8192x1024 1
      [⟨S8192x512, m ((c.tc : Thread nD τ).loc main_arg0)⟩, ⟨S8192x512, m ((c.tc : Thread nD τ).loc main_arg1)⟩]
      Cert.ReferenceIdeal.Facts₀.concatenates_S8192x512_S8192x512_S8192x1024_d1 := by
  show StableHlo.after hostOps0 (W0 m ρ c) (Proc.devRef .tc main_v0) = _
  dsimp only [hostOps0]
  after_results

/-- The weight and the bias are the launch contents: the host operation writes neither, the region only reads them. -/
theorem wIn_eq (c : Dev nD) : wIn m ρ c = m ((c.tc : Thread nD τ).loc main_arg2) :=
  ((W3_of_ne m ρ c main_arg2 (by decide)).trans
    ((W2_arr m ρ c 1).trans (((dat0 (V1 m ρ) c).arrAt_in 1 rfl _).trans (A_eq0 (V1 m ρ) c 1)))).symm.trans (W3_main_arg2 m ρ c)
theorem bIn_eq (c : Dev nD) : bIn m ρ c = m ((c.tc : Thread nD τ).loc main_arg3) :=
  ((W3_of_ne m ρ c main_arg3 (by decide)).trans
    ((W2_arr m ρ c 2).trans (((dat0 (V1 m ρ) c).arrAt_in 2 rfl _).trans (A_eq0 (V1 m ρ) c 2)))).symm.trans (W3_main_arg3 m ρ c)

/-- The printed index maps over the sixteen points: the evidence window and the result window are at block row `t`,
    lane block 0; the weight and the bias windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem pt_lt (t : Fin cfg0.N) : t.val < 16 := Nat.lt_of_lt_of_eq t.isLt N_0

/-- The evidence window's block at point `t`. -/
abbrev xBlk (c : Dev nD) (t : Fin cfg0.N) : Vec Ideal S512x1024 .f32 := iblk0 (V1 m ρ) c 0 t

/-- Its entry (p, k) is row `512 t + p`, lane `k` of the joined array. -/
theorem xBlk_apply (c : Dev nD) (t : Fin cfg0.N) (p : Fin 512) (k : Fin 1024) (r : Fin 8192) (hr : r.val = 512 * t.val + p.val) :
    xBlk m ρ c t (ix2 p k) = catIn m ρ c (ix2 r k) := by
  obtain ⟨e0, e1, -⟩ := idx_facts t
  unfold xBlk iblk0
  rw [View.read_apply]
  show V1 m ρ c main_v0 _ = V1 m ρ c main_v0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The weight window's block is the whole weight at every point, and the bias window's the whole bias. -/
theorem wBlk_eq (c : Dev nD) (t : Fin cfg0.N) : (iblk0 (V1 m ρ) c 1 t : Vec Ideal S1024x1024 .f32) = wIn m ρ c := by
  obtain ⟨-, -, e0, e1, -⟩ := idx_facts t
  funext y
  unfold iblk0
  rw [View.read_apply]
  show V1 m ρ c main_arg2 _ = V1 m ρ c main_arg2 y
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega
theorem bBlk_eq (c : Dev nD) (t : Fin cfg0.N) : (iblk0 (V1 m ρ) c 2 t : Vec Ideal S1x1024 .f32) = bIn m ρ c := by
  obtain ⟨-, -, -, -, e0, e1, -⟩ := idx_facts t
  funext y
  unfold iblk0
  rw [View.read_apply]
  show V1 m ρ c main_arg3 _ = V1 m ρ c main_arg3 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- What the mean body leaves in its result buffer, at (p, q): the row of the evidence block against the weight's
    column, plus the bias. -/
theorem meanOut_apply (x : Vec Ideal S512x1024 .f32) (w : Vec Ideal S1024x1024 .f32) (b : Vec Ideal S1x1024 .f32)
    (p : Fin 512) (q : Fin 1024) :
    out0_3 (F := Ideal) x w b (ix2 p q) = (∑ k : Fin 1024, x (ix2 p k) * w (ix2 k q)) + b (ix2 0 q) := by
  unfold out0_3
  rw [View.canon_unit_zero hz]
  simp only [View.ld_unit_zero (S := S512x1024) hz, View.ld_unit_zero (S := S1024x1024) hz, View.ld_unit_zero (S := S1x1024) hz]
  exact Cert.ReferenceIdeal.MeanPay.pay1_apply x w b p q

/-- What point `t` writes back to the mean array is block `t` of the mean of the launch arrays. -/
theorem mean_flushed (c : Dev nD) (t : Fin cfg0.N) :
    (dat0 (V1 m ρ) c).flushed 3 t
      = ((cfg0.win 3).blk t).view.read (Elt Ideal)
          (Cert.Spec.meanG (m ((c.tc : Thread nD τ).loc main_arg0)) (m ((c.tc : Thread nD τ).loc main_arg1))
            (m ((c.tc : Thread nD τ).loc main_arg2)) (m ((c.tc : Thread nD τ).loc main_arg3))) := by
  show (cfg0.win 3).cut (grid0.coords t) ((dat0 (V1 m ρ) c).after 3 t) = _
  rw [after0_3, wBlk_eq, bBlk_eq]
  obtain ⟨-, -, -, -, -, -, e0, e1⟩ := idx_facts t
  have ht : t.val < 16 := pt_lt t
  funext j
  have hj0 : (j 0).val < 512 := (j 0).isLt
  have hj1 : (j 1).val < 1024 := (j 1).isLt
  -- the element's coordinates in the block and in the array
  have hx : (cfg0.win 3).xinj (grid0.coords t) j = ix2 (⟨(j 0).val, hj0⟩ : Fin 512) (⟨(j 1).val, hj1⟩ : Fin 1024) := by
    funext a
    match a with
    | ⟨0, _⟩ => rfl
    | ⟨1, _⟩ => rfl
  have he : ((cfg0.win 3).blk t).view.emb j
      = ix2 (⟨512 * t.val + (j 0).val, by omega⟩ : Fin 8192) (⟨(j 1).val, hj1⟩ : Fin 1024) := by
    funext a
    apply Fin.ext
    match a with
    | ⟨0, _⟩ => show win0_3.index t (0 : Fin 2) * 512 + 1 * (j 0).val = 512 * t.val + (j 0).val; rw [e0]; omega
    | ⟨1, _⟩ => show win0_3.index t (1 : Fin 2) * 1024 + 1 * (j 1).val = (j 1).val; rw [e1]; omega
  show out0_3 (xBlk m ρ c t) (wIn m ρ c) (bIn m ρ c) ((cfg0.win 3).xinj (grid0.coords t) j)
    = Cert.Spec.meanG (m ((c.tc : Thread nD τ).loc main_arg0)) (m ((c.tc : Thread nD τ).loc main_arg1))
        (m ((c.tc : Thread nD τ).loc main_arg2)) (m ((c.tc : Thread nD τ).loc main_arg3)) (((cfg0.win 3).blk t).view.emb j)
  rw [hx, he, Cert.Spec.meanG_ix2]
  refine (meanOut_apply (xBlk m ρ c t) (wIn m ρ c) (bIn m ρ c) ⟨(j 0).val, hj0⟩ ⟨(j 1).val, hj1⟩).trans ?_
  unfold Cert.Spec.meanAt
  -- the sum term by term: the block's row is a row of the joined array, which is the two launch arrays side by side
  refine congrArg₂ (· + ·) (Finset.sum_congr rfl fun k _ => ?_) ?_
  · rw [xBlk_apply m ρ c t ⟨(j 0).val, hj0⟩ k ⟨512 * t.val + (j 0).val, by omega⟩ rfl, catIn_eq,
      Cert.ReferenceIdeal.MeanPay.concat_apply, wIn_eq]
  · rw [bIn_eq]

/-- The mean array after the run: row `r` is in block `r / 512`, so the sixteen blocks cover it. -/
theorem mean_final (c : Dev nD) :
    W3 m ρ c (Proc.devRef .tc main_v1)
      = Cert.Spec.meanG (m ((c.tc : Thread nD τ).loc main_arg0)) (m ((c.tc : Thread nD τ).loc main_arg1))
          (m ((c.tc : Thread nD τ).loc main_arg2)) (m ((c.tc : Thread nD τ).loc main_arg3)) :=
  (W3_of_ne m ρ c main_v1 (by decide)).trans <| (W2_arr m ρ c 3).trans <|
    (dat0 (V1 m ρ) c).arrAt_eq_of_cover 3 _ (fun t _ => mean_flushed m ρ c t) fun i => by
      have h0 : (i 0 : Nat) < 8192 := (i 0).isLt
      have h1 : (i 1 : Nat) < 1024 := (i 1).isLt
      let t : Fin cfg0.N := ⟨(i 0 : Nat) / 512, by rw [show cfg0.N = 16 from N_0]; omega⟩
      obtain ⟨-, -, -, -, -, -, e0, e1⟩ := idx_facts t
      refine ⟨t, flush0_3 t, ?_⟩
      show i ∈ ((View.whole main_v1).slice (win0_3.rect t)).set
      rw [View.set_slice_whole, Rect.mem_set_unit]
      intro a
      match a with
      | ⟨0, _⟩ =>
        show win0_3.index t (0 : Fin 2) * 512 ≤ (i 0 : Nat) ∧ (i 0 : Nat) < win0_3.index t (0 : Fin 2) * 512 + 512
        rw [e0]; show (i 0 : Nat) / 512 * 512 ≤ (i 0 : Nat) ∧ (i 0 : Nat) < (i 0 : Nat) / 512 * 512 + 512; omega
      | ⟨1, _⟩ =>
        show win0_3.index t (1 : Fin 2) * 1024 ≤ (i 1 : Nat) ∧ (i 1 : Nat) < win0_3.index t (1 : Fin 2) * 1024 + 1024
        rw [e1]; omega

/-! ## The run, read -/

/-- The second program's run: the mean array ends at the mean of the launch arrays, the covariance array at the
    covariance of the launch parameter matrix, and the five arguments are as launched. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
          = Cert.Spec.meanG (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v2) = Cert.Spec.covG (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono
    (fun r h c => ⟨(h c).1.trans (mean_final m ρ c), (h c).2.1.trans (cov_final m ρ c), (h c).2.2⟩)
    (Cert.ReferenceIdeal.GenR.run_results (F := Ideal) m ρ)

end Cert.ReferenceIdeal.Hand

end
-- ==== Proof.lean ====
/-
  The kernel computes, in one fused call on a grid of four points, the mean (the two evidence arrays side by side, times
  the weight matrix, plus the bias) and the covariance (the clamped product of the lower triangle of the parameter
  matrix with its transpose, a jitter on the diagonal). The reference computes the same two arrays with one call per
  result, after laying the evidence arrays side by side in memory.

  The kernel never builds the side-by-side array: it reads each evidence array through two windows (the two halves of its
  columns) and the weight matrix through four (its four row quarters), and adds four partial products. A sum of 1024
  terms is the sum of its four quarters, so both programs end at the same function of the arguments (Spec.lean). The lower
  triangle is computed into a scratch matrix at points 0 and 2 and read at every point; between points the scratch holds
  it. Each block of sixteen (reference) or four (kernel) row blocks is a restriction of the same array function, and the
  blocks cover the array.

  The frames: the kernel's run is proved once, for any float instance, and read at machine words and at the extended
  reals; the reference's frame is generated. No rewrite was applied when the kernel was idealized.
-/
import proofs.«131072_g2000702177497736_pallasbulk_855_6_alg».proof.Defs
import proofs.«131072_g2000702177497736_pallasbulk_855_6_alg».proof.Proof.Gen.Kernel
import proofs.«131072_g2000702177497736_pallasbulk_855_6_alg».proof.Proof.Gen.KernelIdeal
import proofs.«131072_g2000702177497736_pallasbulk_855_6_alg».proof.Proof.Gen.ReferenceIdeal
import proofs.«131072_g2000702177497736_pallasbulk_855_6_alg».proof.Proof.Gen.ReferenceIdeal.Frame
import proofs.«131072_g2000702177497736_pallasbulk_855_6_alg».proof.Proof.Gen.Pre_finite_inputs
import proofs.«131072_g2000702177497736_pallasbulk_855_6_alg».proof.Proof.BLaunch
import proofs.«131072_g2000702177497736_pallasbulk_855_6_alg».proof.Proof.KLaunch
import proofs.«131072_g2000702177497736_pallasbulk_855_6_alg».proof.Proof.KValue
import proofs.«131072_g2000702177497736_pallasbulk_855_6_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Gen.frame m ρ

/-- The ideal pass rewrote nothing. -/
theorem preserves : Cert.preserves_Kernel_KernelIdeal := trivial

/-- Both runs end with the mean and the covariance of the specification, of arguments that agree. -/
theorem algebraic : Cert.algebraic_KernelIdeal_ReferenceIdeal := by
  intro m ρ m' ρ' _ hagree
  refine ⟨fun c => Cert.Spec.meanG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.covG (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Hand.run_results (F := Ideal) m ρ)
    obtain ⟨h0, h1, ha⟩ := h c
    exact ⟨h0.trans (Cert.KernelIdeal.Value_.arrAt_mean m c), h1.trans (Cert.KernelIdeal.Value_.arrAt_cov m c), ha⟩
  · refine (θ_run Cert.ReferenceIdeal.defs _ _).mono (fun r h c => ?_) (Cert.ReferenceIdeal.Hand.run_values m' ρ')
    obtain ⟨h0, h1, ha⟩ := h c
    obtain ⟨e0, e1, e2, e3, e4⟩ := hagree c
    rw [e0, e1, e2, e3] at h0
    rw [e4] at h1
    exact ⟨h0, h1, ha⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
